-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4)) (m ((c.tc : Thread Cert.Kernel.nD Cert.Kernel.τ).loc Cert.Kernel.main_arg5))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4)) (m ((c.tc : Thread Cert.ReferenceIdeal.nD Cert.ReferenceIdeal.τ).loc Cert.ReferenceIdeal.main_arg5))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v63)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v63) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v66) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S_ : Shape := ⟨0, ![]⟩

class Facts : Prop where
  bcast_S_S100000x64 : S_.BroadcastsInDim S100000x64 (![] : Fin 0 → Fin S100000x64.rank)
  reducesTo_S100000x64_S_d0_1 : S100000x64.ReducesTo [0, 1] S_
  h_S_ : 0 < S_.numel
  bcast_S_S64x64 : S_.BroadcastsInDim S64x64 (![] : Fin 0 → Fin S64x64.rank)
  reducesTo_S64x64_S_d0_1 : S64x64.ReducesTo [0, 1] S_
  bcast_S_S64 : S_.BroadcastsInDim S64 (![] : Fin 0 → Fin S64.rank)
  reducesTo_S64_S_d0 : S64.ReducesTo [0] S_

variable [Facts]

def fn_part1 {F : FTy → Type} [FloatOps F] (main_arg5 : FVec F S64 .f32) (main_v13 : IVec S_ 1) (main_v16 : IVec S64x64 1) : IVec S_ 1 :=
  let main_c_5 : IVec S_ 1 := constantI S_ 1 1#1
  let main_v17 : IVec S_ 1 := (fun x v => Host.reduce IntOp.andi x v reducesTo_S64x64_S_d0_1 h_S_) main_v16 main_c_5
  let main_v18 : IVec S_ 1 := andi main_v13 main_v17
  let main_v19 : FVec F S64 .f32 := Host.absf main_arg5
  let main_cst_6 : FVec F S_ .f32 := constant S_ .f32 0x7F800000#32
  let main_v20 : FVec F S64 .f32 := broadcastInDim S64 ![] bcast_S_S64 main_cst_6
  let main_v21 : IVec S64 1 := cmpf .olt main_v19 main_v20
  let main_c_7 : IVec S_ 1 := constantI S_ 1 1#1
  let main_v22 : IVec S_ 1 := (fun x v => Host.reduce IntOp.andi x v reducesTo_S64_S_d0 h_S_) main_v21 main_c_7
  let main_v23 : IVec S_ 1 := andi main_v18 main_v22
  main_v23

def fn {F : FTy → Type} [FloatOps F] (main_arg0 : FVec F S100000x64 .f32) (main_arg1 : IVec S2x3200000 32) (main_arg2 : FVec F S64x64 .f32) (main_arg3 : FVec F S64 .f32) (main_arg4 : FVec F S64x64 .f32) (main_arg5 : FVec F S64 .f32) : IVec S_ 1 :=
  let main_v0 : FVec F S100000x64 .f32 := Host.absf main_arg0
  let main_cst : FVec F S_ .f32 := constant S_ .f32 0x7F800000#32
  let main_v1 : FVec F S100000x64 .f32 := broadcastInDim S100000x64 ![] bcast_S_S100000x64 main_cst
  let main_v2 : IVec S100000x64 1 := cmpf .olt main_v0 main_v1
  let main_c : IVec S_ 1 := constantI S_ 1 1#1
  let main_v3 : IVec S_ 1 := (fun x v => Host.reduce IntOp.andi x v reducesTo_S100000x64_S_d0_1 h_S_) main_v2 main_c
  let main_v4 : FVec F S64x64 .f32 := Host.absf main_arg2
  let main_cst_0 : FVec F S_ .f32 := constant S_ .f32 0x7F800000#32
  let main_v5 : FVec F S64x64 .f32 := broadcastInDim S64x64 ![] bcast_S_S64x64 main_cst_0
  let main_v6 : IVec S64x64 1 := cmpf .olt main_v4 main_v5
  let main_c_1 : IVec S_ 1 := constantI S_ 1 1#1
  let main_v7 : IVec S_ 1 := (fun x v => Host.reduce IntOp.andi x v reducesTo_S64x64_S_d0_1 h_S_) main_v6 main_c_1
  let main_v8 : IVec S_ 1 := andi main_v3 main_v7
  let main_v9 : FVec F S64 .f32 := Host.absf main_arg3
  let main_cst_2 : FVec F S_ .f32 := constant S_ .f32 0x7F800000#32
  let main_v10 : FVec F S64 .f32 := broadcastInDim S64 ![] bcast_S_S64 main_cst_2
  let main_v11 : IVec S64 1 := cmpf .olt main_v9 main_v10
  let main_c_3 : IVec S_ 1 := constantI S_ 1 1#1
  let main_v12 : IVec S_ 1 := (fun x v => Host.reduce IntOp.andi x v reducesTo_S64_S_d0 h_S_) main_v11 main_c_3
  let main_v13 : IVec S_ 1 := andi main_v8 main_v12
  let main_v14 : FVec F S64x64 .f32 := Host.absf main_arg4
  let main_cst_4 : FVec F S_ .f32 := constant S_ .f32 0x7F800000#32
  let main_v15 : FVec F S64x64 .f32 := broadcastInDim S64x64 ![] bcast_S_S64x64 main_cst_4
  let main_v16 : IVec S64x64 1 := cmpf .olt main_v14 main_v15
  fn_part1 (F := F) main_arg5 main_v13 main_v16
-- ==== Kernel.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S5000x64 : Shape := ⟨2, ![5000, 64]⟩
abbrev S3300000x64 : Shape := ⟨2, ![3300000, 64]⟩
abbrev S1x64 : Shape := ⟨2, ![1, 64]⟩

abbrev nBuf : Space → Nat
  | .hbm => 87
  | .vmem => 20
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .i32⟩
  | .hbm, ⟨70, _⟩ => ⟨S3300000, .i32⟩
  | .hbm, ⟨71, _⟩ => ⟨S3300000, .i1⟩
  | .hbm, ⟨72, _⟩ => ⟨S_, .i32⟩
  | .hbm, ⟨73, _⟩ => ⟨S3300000, .i32⟩
  | .hbm, ⟨74, _⟩ => ⟨S3300000, .i32⟩
  | .hbm, ⟨75, _⟩ => ⟨S3300000, .i32⟩
  | .hbm, ⟨76, _⟩ => ⟨S3300000x1, .i32⟩
  | .hbm, ⟨77, _⟩ => ⟨S3300000x64, .f32⟩
  | .hbm, ⟨78, _⟩ => ⟨S3300000x1, .f32⟩
  | .hbm, ⟨79, _⟩ => ⟨S3300000x64, .f32⟩
  | .hbm, ⟨80, _⟩ => ⟨S3300000x64, .f32⟩
  | .hbm, ⟨81, _⟩ => ⟨S_, .f32⟩
  | .hbm, ⟨82, _⟩ => ⟨S100000x64, .f32⟩
  | .hbm, ⟨83, _⟩ => ⟨S3300000x1, .i32⟩
  | .hbm, ⟨84, _⟩ => ⟨S100000x64, .f32⟩
  | .hbm, ⟨85, _⟩ => ⟨S1x64, .f32⟩
  | .hbm, ⟨86, _⟩ => ⟨S100000x64, .f32⟩
  | .local _ .vmem, ⟨0, _⟩ => ⟨S5000x64, .f32⟩
  | .local _ .vmem, ⟨1, _⟩ => ⟨S5000x64, .f32⟩
  | .local _ .vmem, ⟨2, _⟩ => ⟨S64x64, .f32⟩
  | .local _ .vmem, ⟨3, _⟩ => ⟨S5000x64, .f32⟩
  | .local _ .vmem, ⟨4, _⟩ => ⟨S5000x64, .f32⟩
  | .local _ .vmem, ⟨5, _⟩ => ⟨S5000x64, .f32⟩
  | .local _ .vmem, ⟨6, _⟩ => ⟨S5000x64, .f32⟩
  | .local _ .vmem, ⟨7, _⟩ => ⟨S1x64, .f32⟩
  | .local _ .vmem, ⟨8, _⟩ => ⟨S5000x64, .f32⟩
  | .local _ .vmem, ⟨9, _⟩ => ⟨S5000x64, .f32⟩
  | .local _ .vmem, ⟨10, _⟩ => ⟨S5000x64, .f32⟩
  | .local _ .vmem, ⟨11, _⟩ => ⟨S5000x64, .f32⟩
  | .local _ .vmem, ⟨12, _⟩ => ⟨S64x64, .f32⟩
  | .local _ .vmem, ⟨13, _⟩ => ⟨S5000x64, .f32⟩
  | .local _ .vmem, ⟨14, _⟩ => ⟨S5000x64, .f32⟩
  | .local _ .vmem, ⟨15, _⟩ => ⟨S5000x64, .f32⟩
  | .local _ .vmem, ⟨16, _⟩ => ⟨S5000x64, .f32⟩
  | .local _ .vmem, ⟨17, _⟩ => ⟨S1x64, .f32⟩
  | .local _ .vmem, ⟨18, _⟩ => ⟨S5000x64, .f32⟩
  | .local _ .vmem, ⟨19, _⟩ => ⟨S5000x64, .f32⟩
  | _, _ => ⟨S100000x64, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | .vmem, ⟨15, _⟩ => true
  | .vmem, ⟨16, _⟩ => true
  | .vmem, ⟨17, _⟩ => true
  | .vmem, ⟨18, _⟩ => true
  | .vmem, ⟨19, _⟩ => true
  | _, _ => false

abbrev semScoped : Fin 0 → Bool
  | ⟨_, h⟩ => absurd h (Nat.not_lt_zero _)

abbrev dmaSemScoped : Fin 20 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | ⟨12, _⟩ => true
  | ⟨13, _⟩ => true
  | ⟨14, _⟩ => true
  | ⟨15, _⟩ => true
  | ⟨16, _⟩ => true
  | ⟨17, _⟩ => true
  | ⟨18, _⟩ => true
  | ⟨19, _⟩ => true
  | _ => false

abbrev sig : RefSig :=
  ofTc nBuf bufTy 0 20 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_c_10 : Ref sig .tc := ⟨.hbm, 69, rfl⟩
abbrev main_v49 : Ref sig .tc := ⟨.hbm, 70, rfl⟩
abbrev main_v50 : Ref sig .tc := ⟨.hbm, 71, rfl⟩
abbrev main_c_11 : Ref sig .tc := ⟨.hbm, 72, rfl⟩
abbrev main_v51 : Ref sig .tc := ⟨.hbm, 73, rfl⟩
abbrev main_v52 : Ref sig .tc := ⟨.hbm, 74, rfl⟩
abbrev main_v53 : Ref sig .tc := ⟨.hbm, 75, rfl⟩
abbrev main_v54 : Ref sig .tc := ⟨.hbm, 76, rfl⟩
abbrev main_v55 : Ref sig .tc := ⟨.hbm, 77, rfl⟩
abbrev main_v56 : Ref sig .tc := ⟨.hbm, 78, rfl⟩
abbrev main_v57 : Ref sig .tc := ⟨.hbm, 79, rfl⟩
abbrev main_v58 : Ref sig .tc := ⟨.hbm, 80, rfl⟩
abbrev main_cst_12 : Ref sig .tc := ⟨.hbm, 81, rfl⟩
abbrev main_v59 : Ref sig .tc := ⟨.hbm, 82, rfl⟩
abbrev main_v60 : Ref sig .tc := ⟨.hbm, 83, rfl⟩
abbrev main_v61 : Ref sig .tc := ⟨.hbm, 84, rfl⟩
abbrev main_v62 : Ref sig .tc := ⟨.hbm, 85, rfl⟩
abbrev main_v63 : Ref sig .tc := ⟨.hbm, 86, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg2_0 : Ref sig .tc := ⟨.vmem, 8, rfl⟩
abbrev cc1_stg2_1 : Ref sig .tc := ⟨.vmem, 9, rfl⟩
abbrev cc2_stg0_0 : Ref sig .tc := ⟨.vmem, 10, rfl⟩
abbrev cc2_stg0_1 : Ref sig .tc := ⟨.vmem, 11, rfl⟩
abbrev cc2_stg1_0 : Ref sig .tc := ⟨.vmem, 12, rfl⟩
abbrev cc2_stg2_0 : Ref sig .tc := ⟨.vmem, 13, rfl⟩
abbrev cc2_stg2_1 : Ref sig .tc := ⟨.vmem, 14, rfl⟩
abbrev cc3_stg0_0 : Ref sig .tc := ⟨.vmem, 15, rfl⟩
abbrev cc3_stg0_1 : Ref sig .tc := ⟨.vmem, 16, rfl⟩
abbrev cc3_stg1_0 : Ref sig .tc := ⟨.vmem, 17, rfl⟩
abbrev cc3_stg2_0 : Ref sig .tc := ⟨.vmem, 18, rfl⟩
abbrev cc3_stg2_1 : Ref sig .tc := ⟨.vmem, 19, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem2_0 : DmaSem sig := 8
abbrev cc1_sem2_1 : DmaSem sig := 9
abbrev cc2_sem0_0 : DmaSem sig := 10
abbrev cc2_sem0_1 : DmaSem sig := 11
abbrev cc2_sem1_0 : DmaSem sig := 12
abbrev cc2_sem2_0 : DmaSem sig := 13
abbrev cc2_sem2_1 : DmaSem sig := 14
abbrev cc3_sem0_0 : DmaSem sig := 15
abbrev cc3_sem0_1 : DmaSem sig := 16
abbrev cc3_sem1_0 : DmaSem sig := 17
abbrev cc3_sem2_0 : DmaSem sig := 18
abbrev cc3_sem2_1 : DmaSem sig := 19

abbrev nD : Nat := 1
abbrev τ : Topo := Topo.v7x

variable {F : FTy → Type} [FloatOps F]

abbrev grid0 : Pipeline.Grid := ⟨1, ![20], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S5000x64 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S64x64 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S5000x64 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨1, ![20], ![false]⟩

def cc1_transform_0 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

def cc1_transform_1 (i : grid1.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc1_transform_2 (i : grid1.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage1_0 : Fin 2 → Memref sig .tc .vmem S5000x64 .f32 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true]

abbrev stage1_1 : Fin 1 → Memref sig .tc .vmem S1x64 .f32 := fun | 0 => Memref.whole cc1_stg1_0 | ⟨_ + 1, h⟩ => absurd h (Nat.not_lt.2 (Nat.le_add_left _ _))
abbrev sem1_1 : Fin 1 → DmaSem sig := fun | 0 => cc1_sem1_0 | ⟨_ + 1, h⟩ => absurd h (Nat.not_lt.2 (Nat.le_add_left _ _))
abbrev reads1_1 : Fin grid1.rank → Bool := ![false]

abbrev stage1_2 : Fin 2 → Memref sig .tc .vmem S5000x64 .f32 := fun | 0 => Memref.whole cc1_stg2_0 | 1 => Memref.whole cc1_stg2_1 | ⟨_ + 2, h⟩ => absurd h (Nat.not_lt.2 (Nat.le_add_left _ _))
abbrev sem1_2 : Fin 2 → DmaSem sig := fun | 0 => cc1_sem2_0 | 1 => cc1_sem2_1 | ⟨_ + 2, h⟩ => absurd h (Nat.not_lt.2 (Nat.le_add_left _ _))
abbrev reads1_2 : Fin grid1.rank → Bool := ![true]

abbrev grid2 : Pipeline.Grid := ⟨1, ![20], ![false]⟩

def cc2_transform_0 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

def cc2_transform_1 (i : grid2.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc2_transform_2 (i : grid2.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage2_0 : Fin 2 → Memref sig .tc .vmem S5000x64 .f32 := fun | 0 => Memref.whole cc2_stg0_0 | 1 => Memref.whole cc2_stg0_1 | ⟨_ + 2, h⟩ => absurd h (Nat.not_lt.2 (Nat.le_add_left _ _))
abbrev sem2_0 : Fin 2 → DmaSem sig := fun | 0 => cc2_sem0_0 | 1 => cc2_sem0_1 | ⟨_ + 2, h⟩ => absurd h (Nat.not_lt.2 (Nat.le_add_left _ _))
abbrev reads2_0 : Fin grid2.rank → Bool := ![true]

abbrev stage2_1 : Fin 1 → Memref sig .tc .vmem S64x64 .f32 := fun | 0 => Memref.whole cc2_stg1_0 | ⟨_ + 1, h⟩ => absurd h (Nat.not_lt.2 (Nat.le_add_left _ _))
abbrev sem2_1 : Fin 1 → DmaSem sig := fun | 0 => cc2_sem1_0 | ⟨_ + 1, h⟩ => absurd h (Nat.not_lt.2 (Nat.le_add_left _ _))
abbrev reads2_1 : Fin grid2.rank → Bool := ![false]

abbrev stage2_2 : Fin 2 → Memref sig .tc .vmem S5000x64 .f32 := fun | 0 => Memref.whole cc2_stg2_0 | 1 => Memref.whole cc2_stg2_1 | ⟨_ + 2, h⟩ => absurd h (Nat.not_lt.2 (Nat.le_add_left _ _))
abbrev sem2_2 : Fin 2 → DmaSem sig := fun | 0 => cc2_sem2_0 | 1 => cc2_sem2_1 | ⟨_ + 2, h⟩ => absurd h (Nat.not_lt.2 (Nat.le_add_left _ _))
abbrev reads2_2 : Fin grid2.rank → Bool := ![true]

abbrev grid3 : Pipeline.Grid := ⟨1, ![20], ![false]⟩

def cc3_transform_0 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

def cc3_transform_1 (i : grid3.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc3_transform_2 (i : grid3.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage3_0 : Fin 2 → Memref sig .tc .vmem S5000x64 .f32 := fun | 0 => Memref.whole cc3_stg0_0 | 1 => Memref.whole cc3_stg0_1 | ⟨_ + 2, h⟩ => absurd h (Nat.not_lt.2 (Nat.le_add_left _ _))
abbrev sem3_0 : Fin 2 → DmaSem sig := fun | 0 => cc3_sem0_0 | 1 => cc3_sem0_1 | ⟨_ + 2, h⟩ => absurd h (Nat.not_lt.2 (Nat.le_add_left _ _))
abbrev reads3_0 : Fin grid3.rank → Bool := ![true]

abbrev stage3_1 : Fin 1 → Memref sig .tc .vmem S1x64 .f32 := fun | 0 => Memref.whole cc3_stg1_0 | ⟨_ + 1, h⟩ => absurd h (Nat.not_lt.2 (Nat.le_add_left _ _))
abbrev sem3_1 : Fin 1 → DmaSem sig := fun | 0 => cc3_sem1_0 | ⟨_ + 1, h⟩ => absurd h (Nat.not_lt.2 (Nat.le_add_left _ _))
abbrev reads3_1 : Fin grid3.rank → Bool := ![false]

abbrev stage3_2 : Fin 2 → Memref sig .tc .vmem S5000x64 .f32 := fun | 0 => Memref.whole cc3_stg2_0 | 1 => Memref.whole cc3_stg2_1 | ⟨_ + 2, h⟩ => absurd h (Nat.not_lt.2 (Nat.le_add_left _ _))
abbrev sem3_2 : Fin 2 → DmaSem sig := fun | 0 => cc3_sem2_0 | 1 => cc3_sem2_1 | ⟨_ + 2, h⟩ => absurd h (Nat.not_lt.2 (Nat.le_add_left _ _))
abbrev reads3_2 : Fin grid3.rank → Bool := ![true]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  inb_S5000x64_S5000x64_0_0 : ∀ a, (![0, 0] : Fin 2 → Nat) a + S5000x64.size a ≤ S5000x64.size a
  h_S5000x64 : 0 < S5000x64.numel
  bitsLt_bf16_f32 : FTy.bits .bf16 < FTy.bits .f32
  inb_S64x64_S64x64_0_0 : ∀ a, (![0, 0] : Fin 2 → Nat) a + S64x64.size a ≤ S64x64.size a
  h_S64x64 : 0 < S64x64.numel
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  shapeCasts_S64_S1x64 : S64.ShapeCasts S1x64
  shapeCasts_S5000x64_S5000x64 : S5000x64.ShapeCasts S5000x64
  inb_S1x64_S1x64_0_0 : ∀ a, (![0, 0] : Fin 2 → Nat) a + S1x64.size a ≤ S1x64.size a
  h_S1x64 : 0 < S1x64.numel
  shapeCasts_S1x64_S1x64 : S1x64.ShapeCasts S1x64
  broadcasts_S1x64_S5000x64 : S1x64.Broadcasts S5000x64
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S5000x64_S64x64_S5000x64_1_0_0_1_n_n_wf : DotDims.WF S5000x64 S64x64 S5000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S5000x64.size a ≤ S100000x64.size a
  hwx0_0 : ∀ i : grid0.Coords, EltTy.bits .f32 = 32 ∨ (Rect.block (s := S100000x64) S5000x64.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S64x64.size a ≤ S64x64.size a
  hwx0_1 : ∀ i : grid0.Coords, EltTy.bits .f32 = 32 ∨ (Rect.block (s := S64x64) S64x64.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S5000x64.size a ≤ S100000x64.size a
  hwx0_2 : ∀ i : grid0.Coords, EltTy.bits .f32 = 32 ∨ (Rect.block (s := S100000x64) S5000x64.size (cc0_transform_2 i) (hinb0_2 i)).WholeWords (EltTy.packing .f32)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S5000x64.size a ≤ S100000x64.size a
  hwx1_0 : ∀ i : grid1.Coords, EltTy.bits .f32 = 32 ∨ (Rect.block (s := S100000x64) S5000x64.size (cc1_transform_0 i) (hinb1_0 i)).WholeWords (EltTy.packing .f32)
  hstage1_1 : ∀ j, (stage1_1 j).IsWhole
  nbuf1_1 : grid1.bufCount reads1_1 true = 1
  hreads1_1 : ∀ i i' : grid1.Coords, (∀ a, reads1_1 a = true → i a = i' a) → cc1_transform_1 i = cc1_transform_1 i'
  hinb1_1 : ∀ (i : grid1.Coords) a, (cc1_transform_1 i a + 1) * S1x64.size a ≤ S1x64.size a
  hwx1_1 : ∀ i : grid1.Coords, EltTy.bits .f32 = 32 ∨ (Rect.block (s := S1x64) S1x64.size (cc1_transform_1 i) (hinb1_1 i)).WholeWords (EltTy.packing .f32)
  hstage1_2 : ∀ j, (stage1_2 j).IsWhole
  nbuf1_2 : grid1.bufCount reads1_2 false = 2
  hreads1_2 : ∀ i i' : grid1.Coords, (∀ a, reads1_2 a = true → i a = i' a) → cc1_transform_2 i = cc1_transform_2 i'
  hinb1_2 : ∀ (i : grid1.Coords) a, (cc1_transform_2 i a + 1) * S5000x64.size a ≤ S100000x64.size a
  hwx1_2 : ∀ i : grid1.Coords, EltTy.bits .f32 = 32 ∨ (Rect.block (s := S100000x64) S5000x64.size (cc1_transform_2 i) (hinb1_2 i)).WholeWords (EltTy.packing .f32)
  hrank2 : 0 < grid2.rank
  hstage2_0 : ∀ j, (stage2_0 j).IsWhole
  nbuf2_0 : grid2.bufCount reads2_0 false = 2
  hreads2_0 : ∀ i i' : grid2.Coords, (∀ a, reads2_0 a = true → i a = i' a) → cc2_transform_0 i = cc2_transform_0 i'
  hinb2_0 : ∀ (i : grid2.Coords) a, (cc2_transform_0 i a + 1) * S5000x64.size a ≤ S100000x64.size a
  hwx2_0 : ∀ i : grid2.Coords, EltTy.bits .f32 = 32 ∨ (Rect.block (s := S100000x64) S5000x64.size (cc2_transform_0 i) (hinb2_0 i)).WholeWords (EltTy.packing .f32)
  hstage2_1 : ∀ j, (stage2_1 j).IsWhole
  nbuf2_1 : grid2.bufCount reads2_1 true = 1
  hreads2_1 : ∀ i i' : grid2.Coords, (∀ a, reads2_1 a = true → i a = i' a) → cc2_transform_1 i = cc2_transform_1 i'
  hinb2_1 : ∀ (i : grid2.Coords) a, (cc2_transform_1 i a + 1) * S64x64.size a ≤ S64x64.size a
  hwx2_1 : ∀ i : grid2.Coords, EltTy.bits .f32 = 32 ∨ (Rect.block (s := S64x64) S64x64.size (cc2_transform_1 i) (hinb2_1 i)).WholeWords (EltTy.packing .f32)
  hstage2_2 : ∀ j, (stage2_2 j).IsWhole
  nbuf2_2 : grid2.bufCount reads2_2 false = 2
  hreads2_2 : ∀ i i' : grid2.Coords, (∀ a, reads2_2 a = true → i a = i' a) → cc2_transform_2 i = cc2_transform_2 i'
  hinb2_2 : ∀ (i : grid2.Coords) a, (cc2_transform_2 i a + 1) * S5000x64.size a ≤ S100000x64.size a
  hwx2_2 : ∀ i : grid2.Coords, EltTy.bits .f32 = 32 ∨ (Rect.block (s := S100000x64) S5000x64.size (cc2_transform_2 i) (hinb2_2 i)).WholeWords (EltTy.packing .f32)
  hrank3 : 0 < grid3.rank
  hstage3_0 : ∀ j, (stage3_0 j).IsWhole
  nbuf3_0 : grid3.bufCount reads3_0 false = 2
  hreads3_0 : ∀ i i' : grid3.Coords, (∀ a, reads3_0 a = true → i a = i' a) → cc3_transform_0 i = cc3_transform_0 i'
  hinb3_0 : ∀ (i : grid3.Coords) a, (cc3_transform_0 i a + 1) * S5000x64.size a ≤ S100000x64.size a
  hwx3_0 : ∀ i : grid3.Coords, EltTy.bits .f32 = 32 ∨ (Rect.block (s := S100000x64) S5000x64.size (cc3_transform_0 i) (hinb3_0 i)).WholeWords (EltTy.packing .f32)
  hstage3_1 : ∀ j, (stage3_1 j).IsWhole
  nbuf3_1 : grid3.bufCount reads3_1 true = 1
  hreads3_1 : ∀ i i' : grid3.Coords, (∀ a, reads3_1 a = true → i a = i' a) → cc3_transform_1 i = cc3_transform_1 i'
  hinb3_1 : ∀ (i : grid3.Coords) a, (cc3_transform_1 i a + 1) * S1x64.size a ≤ S1x64.size a
  hwx3_1 : ∀ i : grid3.Coords, EltTy.bits .f32 = 32 ∨ (Rect.block (s := S1x64) S1x64.size (cc3_transform_1 i) (hinb3_1 i)).WholeWords (EltTy.packing .f32)
  hstage3_2 : ∀ j, (stage3_2 j).IsWhole
  nbuf3_2 : grid3.bufCount reads3_2 false = 2
  hreads3_2 : ∀ i i' : grid3.Coords, (∀ a, reads3_2 a = true → i a = i' a) → cc3_transform_2 i = cc3_transform_2 i'
  hinb3_2 : ∀ (i : grid3.Coords) a, (cc3_transform_2 i a + 1) * S5000x64.size a ≤ S100000x64.size a
  hwx3_2 : ∀ i : grid3.Coords, EltTy.bits .f32 = 32 ∨ (Rect.block (s := S100000x64) S5000x64.size (cc3_transform_2 i) (hinb3_2 i)).WholeWords (EltTy.packing .f32)

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S5000x64_S64x64_S5000x64_1_0_0_1_n_n : DotDims S5000x64 S64x64 S5000x64 where
  lhsContracting := [1]
  rhsContracting := [0]
  lhsNonContracting := [0]
  rhsNonContracting := [1]
  lhsBatch := []
  rhsBatch := []
  wf := dot_S5000x64_S64x64_S5000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

abbrev win0_0 : Pipeline.Window sig grid0 :=
  Pipeline.Window.ofSpec (Memref.whole main_arg0) S5000x64.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S64x64.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v32) S5000x64.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v45) S5000x64.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_v46) S1x64.size cc1_transform_1 reads1_1 false true 1 stage1_1 sem1_1
    hrank1 hreads1_1 hinb1_1 nbuf1_1 (Memref.isWhole_whole _) hwx1_1 hstage1_1

abbrev win1_2 : Pipeline.Window sig grid1 :=
  Pipeline.Window.ofSpec (Memref.whole main_v47) S5000x64.size cc1_transform_2 reads1_2 true false 2 stage1_2 sem1_2
    hrank1 hreads1_2 hinb1_2 nbuf1_2 (Memref.isWhole_whole _) hwx1_2 hstage1_2

abbrev win1 : Fin 3 → Pipeline.Window sig grid1 := fun | 0 => win1_0 | 1 => win1_1 | 2 => win1_2 | ⟨_ + 3, h⟩ => absurd h (Nat.not_lt.2 (Nat.le_add_left _ _))
abbrev spec1 : Fin 3 → Pipeline.WinSpec sig grid1.rank := fun w => (win1 w).toWinSpec

abbrev win2_0 : Pipeline.Window sig grid2 :=
  Pipeline.Window.ofSpec (Memref.whole main_v47) S5000x64.size cc2_transform_0 reads2_0 false false 2 stage2_0 sem2_0
    hrank2 hreads2_0 hinb2_0 nbuf2_0 (Memref.isWhole_whole _) hwx2_0 hstage2_0

abbrev win2_1 : Pipeline.Window sig grid2 :=
  Pipeline.Window.ofSpec (Memref.whole main_arg4) S64x64.size cc2_transform_1 reads2_1 false true 1 stage2_1 sem2_1
    hrank2 hreads2_1 hinb2_1 nbuf2_1 (Memref.isWhole_whole _) hwx2_1 hstage2_1

abbrev win2_2 : Pipeline.Window sig grid2 :=
  Pipeline.Window.ofSpec (Memref.whole main_v48) S5000x64.size cc2_transform_2 reads2_2 true false 2 stage2_2 sem2_2
    hrank2 hreads2_2 hinb2_2 nbuf2_2 (Memref.isWhole_whole _) hwx2_2 hstage2_2

abbrev win2 : Fin 3 → Pipeline.Window sig grid2 := fun | 0 => win2_0 | 1 => win2_1 | 2 => win2_2 | ⟨_ + 3, h⟩ => absurd h (Nat.not_lt.2 (Nat.le_add_left _ _))
abbrev spec2 : Fin 3 → Pipeline.WinSpec sig grid2.rank := fun w => (win2 w).toWinSpec

abbrev win3_0 : Pipeline.Window sig grid3 :=
  Pipeline.Window.ofSpec (Memref.whole main_v61) S5000x64.size cc3_transform_0 reads3_0 false false 2 stage3_0 sem3_0
    hrank3 hreads3_0 hinb3_0 nbuf3_0 (Memref.isWhole_whole _) hwx3_0 hstage3_0

abbrev win3_1 : Pipeline.Window sig grid3 :=
  Pipeline.Window.ofSpec (Memref.whole main_v62) S1x64.size cc3_transform_1 reads3_1 false true 1 stage3_1 sem3_1
    hrank3 hreads3_1 hinb3_1 nbuf3_1 (Memref.isWhole_whole _) hwx3_1 hstage3_1

abbrev win3_2 : Pipeline.Window sig grid3 :=
  Pipeline.Window.ofSpec (Memref.whole main_v63) S5000x64.size cc3_transform_2 reads3_2 true false 2 stage3_2 sem3_2
    hrank3 hreads3_2 hinb3_2 nbuf3_2 (Memref.isWhole_whole _) hwx3_2 hstage3_2

abbrev win3 : Fin 3 → Pipeline.Window sig grid3 := fun | 0 => win3_0 | 1 => win3_1 | 2 => win3_2 | ⟨_ + 3, h⟩ => absurd h (Nat.not_lt.2 (Nat.le_add_left _ _))
abbrev spec3 : Fin 3 → Pipeline.WinSpec sig grid3.rank := fun w => (win3 w).toWinSpec

class Facts : Prop extends Facts₀ where

variable [Facts]
-- ==== ReferenceIdeal.lean ====
abbrev S100000x64 : Shape := ⟨2, ![100000, 64]⟩
abbrev S2x3200000 : Shape := ⟨2, ![2, 3200000]⟩
abbrev S64x64 : Shape := ⟨2, ![64, 64]⟩
abbrev S64 : Shape := ⟨1, ![64]⟩
abbrev S100000 : Shape := ⟨1, ![100000]⟩
abbrev S1x3200000 : Shape := ⟨2, ![1, 3200000]⟩
abbrev S3200000 : Shape := ⟨1, ![3200000]⟩
abbrev S3300000 : Shape := ⟨1, ![3300000]⟩
abbrev S_ : Shape := ⟨0, ![]⟩
abbrev S3300000x1 : Shape := ⟨2, ![3300000, 1]⟩
abbrev S3300000x64 : Shape := ⟨2, ![3300000, 64]⟩
abbrev S1x64 : Shape := ⟨2, ![1, 64]⟩

abbrev nBuf : Space → Nat
  | .hbm => 92
  | .vmem => 0
  | .smem => 0
  | _ => 0

abbrev bufTy : (tb : Table) → Fin (tcTables nBuf tb) → BufTy
  | .hbm, ⟨0, _⟩ => ⟨S100000x64, .f32⟩
  | .hbm, ⟨1, _⟩ => ⟨S2x3200000, .i32⟩
  | .hbm, ⟨2, _⟩ => ⟨S64x64, .f32⟩
  | .hbm, ⟨3, _⟩ => ⟨S64, .f32⟩
  | .hbm, ⟨4, _⟩ => ⟨S64x64, .f32⟩
  | .hbm, ⟨5, _⟩ => ⟨S64, .f32⟩
  | .hbm, ⟨6, _⟩ => ⟨S100000, .i32⟩
  | .hbm, ⟨7, _⟩ => ⟨S1x3200000, .i32⟩
  | .hbm, ⟨8, _⟩ => ⟨S3200000, .i32⟩
  | .hbm, ⟨9, _⟩ => ⟨S3300000, .i32⟩
  | .hbm, ⟨10, _⟩ => ⟨S1x3200000, .i32⟩
  | .hbm, ⟨11, _⟩ => ⟨S3200000, .i32⟩
  | .hbm, ⟨12, _⟩ => ⟨S3300000, .i32⟩
  | .hbm, ⟨13, _⟩ => ⟨S_, .f32⟩
  | .hbm, ⟨14, _⟩ => ⟨S3300000, .f32⟩
  | .hbm, ⟨15, _⟩ => ⟨S_, .f32⟩
  | .hbm, ⟨16, _⟩ => ⟨S100000, .f32⟩
  | .hbm, ⟨17, _⟩ => ⟨S3300000x1, .i32⟩
  | .hbm, ⟨18, _⟩ => ⟨S100000, .f32⟩
  | .hbm, ⟨19, _⟩ => ⟨S_, .f32⟩
  | .hbm, ⟨20, _⟩ => ⟨S100000, .f32⟩
  | .hbm, ⟨21, _⟩ => ⟨S100000, .i1⟩
  | .hbm, ⟨22, _⟩ => ⟨S_, .f32⟩
  | .hbm, ⟨23, _⟩ => ⟨S100000, .f32⟩
  | .hbm, ⟨24, _⟩ => ⟨S100000, .f32⟩
  | .hbm, ⟨25, _⟩ => ⟨S100000, .f32⟩
  | .hbm, ⟨26, _⟩ => ⟨S_, .f32⟩
  | .hbm, ⟨27, _⟩ => ⟨S_, .f32⟩
  | .hbm, ⟨28, _⟩ => ⟨S100000, .f32⟩
  | .hbm, ⟨29, _⟩ => ⟨S100000, .f32⟩
  | .hbm, ⟨30, _⟩ => ⟨S_, .i32⟩
  | .hbm, ⟨31, _⟩ => ⟨S3300000, .i32⟩
  | .hbm, ⟨32, _⟩ => ⟨S3300000, .i1⟩
  | .hbm, ⟨33, _⟩ => ⟨S_, .i32⟩
  | .hbm, ⟨34, _⟩ => ⟨S3300000, .i32⟩
  | .hbm, ⟨35, _⟩ => ⟨S3300000, .i32⟩
  | .hbm, ⟨36, _⟩ => ⟨S3300000, .i32⟩
  | .hbm, ⟨37, _⟩ => ⟨S3300000x1, .i32⟩
  | .hbm, ⟨38, _⟩ => ⟨S3300000, .f32⟩
  | .hbm, ⟨39, _⟩ => ⟨S_, .i32⟩
  | .hbm, ⟨40, _⟩ => ⟨S3300000, .i32⟩
  | .hbm, ⟨41, _⟩ => ⟨S3300000, .i1⟩
  | .hbm, ⟨42, _⟩ => ⟨S_, .i32⟩
  | .hbm, ⟨43, _⟩ => ⟨S3300000, .i32⟩
  | .hbm, ⟨44, _⟩ => ⟨S3300000, .i32⟩
  | .hbm, ⟨45, _⟩ => ⟨S3300000, .i32⟩
  | .hbm, ⟨46, _⟩ => ⟨S3300000x1, .i32⟩
  | .hbm, ⟨47, _⟩ => ⟨S3300000, .f32⟩
  | .hbm, ⟨48, _⟩ => ⟨S3300000, .f32⟩
  | .hbm, ⟨49, _⟩ => ⟨S100000x64, .f32⟩
  | .hbm, ⟨50, _⟩ => ⟨S_, .i32⟩
  | .hbm, ⟨51, _⟩ => ⟨S3300000, .i32⟩
  | .hbm, ⟨52, _⟩ => ⟨S3300000, .i1⟩
  | .hbm, ⟨53, _⟩ => ⟨S_, .i32⟩
  | .hbm, ⟨54, _⟩ => ⟨S3300000, .i32⟩
  | .hbm, ⟨55, _⟩ => ⟨S3300000, .i32⟩
  | .hbm, ⟨56, _⟩ => ⟨S3300000, .i32⟩
  | .hbm, ⟨57, _⟩ => ⟨S3300000x1, .i32⟩
  | .hbm, ⟨58, _⟩ => ⟨S3300000x64, .f32⟩
  | .hbm, ⟨59, _⟩ => ⟨S3300000x1, .f32⟩
  | .hbm, ⟨60, _⟩ => ⟨S3300000x64, .f32⟩
  | .hbm, ⟨61, _⟩ => ⟨S3300000x64, .f32⟩
  | .hbm, ⟨62, _⟩ => ⟨S_, .f32⟩
  | .hbm, ⟨63, _⟩ => ⟨S100000x64, .f32⟩
  | .hbm, ⟨64, _⟩ => ⟨S3300000x1, .i32⟩
  | .hbm, ⟨65, _⟩ => ⟨S100000x64, .f32⟩
  | .hbm, ⟨66, _⟩ => ⟨S1x64, .f32⟩
  | .hbm, ⟨67, _⟩ => ⟨S100000x64, .f32⟩
  | .hbm, ⟨68, _⟩ => ⟨S100000x64, .f32⟩
  | .hbm, ⟨69, _⟩ => ⟨S_, .f32⟩
  | .hbm, ⟨70, _⟩ => ⟨S100000x64, .f32⟩
  | .hbm, ⟨71, _⟩ => ⟨S100000x64, .f32⟩
  | .hbm, ⟨72, _⟩ => ⟨S100000x64, .f32⟩
  | .hbm, ⟨73, _⟩ => ⟨S_, .i32⟩
  | .hbm, ⟨74, _⟩ => ⟨S3300000, .i32⟩
  | .hbm, ⟨75, _⟩ => ⟨S3300000, .i1⟩
  | .hbm, ⟨76, _⟩ => ⟨S_, .i32⟩
  | .hbm, ⟨77, _⟩ => ⟨S3300000, .i32⟩
  | .hbm, ⟨78, _⟩ => ⟨S3300000, .i32⟩
  | .hbm, ⟨79, _⟩ => ⟨S3300000, .i32⟩
  | .hbm, ⟨80, _⟩ => ⟨S3300000x1, .i32⟩
  | .hbm, ⟨81, _⟩ => ⟨S3300000x64, .f32⟩
  | .hbm, ⟨82, _⟩ => ⟨S3300000x1, .f32⟩
  | .hbm, ⟨83, _⟩ => ⟨S3300000x64, .f32⟩
  | .hbm, ⟨84, _⟩ => ⟨S3300000x64, .f32⟩
  | .hbm, ⟨85, _⟩ => ⟨S_, .f32⟩
  | .hbm, ⟨86, _⟩ => ⟨S100000x64, .f32⟩
  | .hbm, ⟨87, _⟩ => ⟨S3300000x1, .i32⟩
  | .hbm, ⟨88, _⟩ => ⟨S100000x64, .f32⟩
  | .hbm, ⟨89, _⟩ => ⟨S1x64, .f32⟩
  | .hbm, ⟨90, _⟩ => ⟨S100000x64, .f32⟩
  | .hbm, ⟨91, _⟩ => ⟨S100000x64, .f32⟩
  | _, _ => ⟨S100000x64, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_v6 : Ref sig .tc := ⟨.hbm, 12, rfl⟩
abbrev main_cst : Ref sig .tc := ⟨.hbm, 13, rfl⟩
abbrev main_v7 : Ref sig .tc := ⟨.hbm, 14, rfl⟩
abbrev main_cst_0 : Ref sig .tc := ⟨.hbm, 15, rfl⟩
abbrev main_v8 : Ref sig .tc := ⟨.hbm, 16, rfl⟩
abbrev main_v9 : Ref sig .tc := ⟨.hbm, 17, rfl⟩
abbrev main_v10 : Ref sig .tc := ⟨.hbm, 18, rfl⟩
abbrev main_cst_1 : Ref sig .tc := ⟨.hbm, 19, rfl⟩
abbrev main_v11 : Ref sig .tc := ⟨.hbm, 20, rfl⟩
abbrev main_v12 : Ref sig .tc := ⟨.hbm, 21, rfl⟩
abbrev main_cst_2 : Ref sig .tc := ⟨.hbm, 22, rfl⟩
abbrev main_v13 : Ref sig .tc := ⟨.hbm, 23, rfl⟩
abbrev main_v14 : Ref sig .tc := ⟨.hbm, 24, rfl⟩
abbrev main_v15 : Ref sig .tc := ⟨.hbm, 25, rfl⟩
abbrev main_cst_3 : Ref sig .tc := ⟨.hbm, 26, rfl⟩
abbrev main_call0_v0 : Ref sig .tc := ⟨.hbm, 27, rfl⟩
abbrev main_call0_v1 : Ref sig .tc := ⟨.hbm, 28, rfl⟩
abbrev main_v16 : Ref sig .tc := ⟨.hbm, 29, rfl⟩
abbrev main_c : Ref sig .tc := ⟨.hbm, 30, rfl⟩
abbrev main_v17 : Ref sig .tc := ⟨.hbm, 31, rfl⟩
abbrev main_v18 : Ref sig .tc := ⟨.hbm, 32, rfl⟩
abbrev main_c_4 : Ref sig .tc := ⟨.hbm, 33, rfl⟩
abbrev main_v19 : Ref sig .tc := ⟨.hbm, 34, rfl⟩
abbrev main_v20 : Ref sig .tc := ⟨.hbm, 35, rfl⟩
abbrev main_v21 : Ref sig .tc := ⟨.hbm, 36, rfl⟩
abbrev main_v22 : Ref sig .tc := ⟨.hbm, 37, rfl⟩
abbrev main_v23 : Ref sig .tc := ⟨.hbm, 38, rfl⟩
abbrev main_c_5 : Ref sig .tc := ⟨.hbm, 39, rfl⟩
abbrev main_v24 : Ref sig .tc := ⟨.hbm, 40, rfl⟩
abbrev main_v25 : Ref sig .tc := ⟨.hbm, 41, rfl⟩
abbrev main_c_6 : Ref sig .tc := ⟨.hbm, 42, rfl⟩
abbrev main_v26 : Ref sig .tc := ⟨.hbm, 43, rfl⟩
abbrev main_v27 : Ref sig .tc := ⟨.hbm, 44, rfl⟩
abbrev main_v28 : Ref sig .tc := ⟨.hbm, 45, rfl⟩
abbrev main_v29 : Ref sig .tc := ⟨.hbm, 46, rfl⟩
abbrev main_v30 : Ref sig .tc := ⟨.hbm, 47, rfl⟩
abbrev main_v31 : Ref sig .tc := ⟨.hbm, 48, rfl⟩
abbrev main_v32 : Ref sig .tc := ⟨.hbm, 49, rfl⟩
abbrev main_c_7 : Ref sig .tc := ⟨.hbm, 50, rfl⟩
abbrev main_v33 : Ref sig .tc := ⟨.hbm, 51, rfl⟩
abbrev main_v34 : Ref sig .tc := ⟨.hbm, 52, rfl⟩
abbrev main_c_8 : Ref sig .tc := ⟨.hbm, 53, rfl⟩
abbrev main_v35 : Ref sig .tc := ⟨.hbm, 54, rfl⟩
abbrev main_v36 : Ref sig .tc := ⟨.hbm, 55, rfl⟩
abbrev main_v37 : Ref sig .tc := ⟨.hbm, 56, rfl⟩
abbrev main_v38 : Ref sig .tc := ⟨.hbm, 57, rfl⟩
abbrev main_v39 : Ref sig .tc := ⟨.hbm, 58, rfl⟩
abbrev main_v40 : Ref sig .tc := ⟨.hbm, 59, rfl⟩
abbrev main_v41 : Ref sig .tc := ⟨.hbm, 60, rfl⟩
abbrev main_v42 : Ref sig .tc := ⟨.hbm, 61, rfl⟩
abbrev main_cst_9 : Ref sig .tc := ⟨.hbm, 62, rfl⟩
abbrev main_v43 : Ref sig .tc := ⟨.hbm, 63, rfl⟩
abbrev main_v44 : Ref sig .tc := ⟨.hbm, 64, rfl⟩
abbrev main_v45 : Ref sig .tc := ⟨.hbm, 65, rfl⟩
abbrev main_v46 : Ref sig .tc := ⟨.hbm, 66, rfl⟩
abbrev main_v47 : Ref sig .tc := ⟨.hbm, 67, rfl⟩
abbrev main_v48 : Ref sig .tc := ⟨.hbm, 68, rfl⟩
abbrev main_call1_cst : Ref sig .tc := ⟨.hbm, 69, rfl⟩
abbrev main_call1_v0 : Ref sig .tc := ⟨.hbm, 70, rfl⟩
abbrev main_v49 : Ref sig .tc := ⟨.hbm, 71, rfl⟩
abbrev main_v50 : Ref sig .tc := ⟨.hbm, 72, rfl⟩
abbrev main_c_10 : Ref sig .tc := ⟨.hbm, 73, rfl⟩
abbrev main_v51 : Ref sig .tc := ⟨.hbm, 74, rfl⟩
abbrev main_v52 : Ref sig .tc := ⟨.hbm, 75, rfl⟩
abbrev main_c_11 : Ref sig .tc := ⟨.hbm, 76, rfl⟩
abbrev main_v53 : Ref sig .tc := ⟨.hbm, 77, rfl⟩
abbrev main_v54 : Ref sig .tc := ⟨.hbm, 78, rfl⟩
abbrev main_v55 : Ref sig .tc := ⟨.hbm, 79, rfl⟩
abbrev main_v56 : Ref sig .tc := ⟨.hbm, 80, rfl⟩
abbrev main_v57 : Ref sig .tc := ⟨.hbm, 81, rfl⟩
abbrev main_v58 : Ref sig .tc := ⟨.hbm, 82, rfl⟩
abbrev main_v59 : Ref sig .tc := ⟨.hbm, 83, rfl⟩
abbrev main_v60 : Ref sig .tc := ⟨.hbm, 84, rfl⟩
abbrev main_cst_12 : Ref sig .tc := ⟨.hbm, 85, rfl⟩
abbrev main_v61 : Ref sig .tc := ⟨.hbm, 86, rfl⟩
abbrev main_v62 : Ref sig .tc := ⟨.hbm, 87, rfl⟩
abbrev main_v63 : Ref sig .tc := ⟨.hbm, 88, rfl⟩
abbrev main_v64 : Ref sig .tc := ⟨.hbm, 89, rfl⟩
abbrev main_v65 : Ref sig .tc := ⟨.hbm, 90, rfl⟩
abbrev main_v66 : Ref sig .tc := ⟨.hbm, 91, rfl⟩

abbrev nD : Nat := 1
abbrev τ : Topo := Topo.v7x

variable {F : FTy → Type} [FloatOps F]

class Facts₀ : Prop where
  slices_S2x3200000_S1x3200000_0_0 : S2x3200000.Slices ![0, 0] S1x3200000
  shapeCasts_S1x3200000_S3200000 : S1x3200000.ShapeCasts S3200000
  concatenates_S3200000_S100000_S3300000_d0 : Shape.Concatenates [S3200000, S100000] S3300000 0
  slices_S2x3200000_S1x3200000_1_0 : S2x3200000.Slices ![1, 0] S1x3200000
  bcast_S_S3300000 : S_.BroadcastsInDim S3300000 (![] : Fin 0 → Fin S3300000.rank)
  bcast_S_S100000 : S_.BroadcastsInDim S100000 (![] : Fin 0 → Fin S100000.rank)
  bcast_S3300000_S3300000x1_0 : S3300000.BroadcastsInDim S3300000x1 (![0] : Fin 1 → Fin S3300000x1.rank)
  bcast_S3300000x1_S3300000x64_0_1 : S3300000x1.BroadcastsInDim S3300000x64 (![0, 1] : Fin 2 → Fin S3300000x64.rank)
  bcast_S_S100000x64 : S_.BroadcastsInDim S100000x64 (![] : Fin 0 → Fin S100000x64.rank)
  bcast_S64_S1x64_1 : S64.BroadcastsInDim S1x64 (![1] : Fin 1 → Fin S1x64.rank)
  bcast_S1x64_S100000x64_0_1 : S1x64.BroadcastsInDim S100000x64 (![0, 1] : Fin 2 → Fin S100000x64.rank)
  scatter_S100000_S3300000x1_S3300000_n_0_0_1_wf : ScatterDims.WF S100000 S3300000x1 S3300000 [] [0] [0] 1
  gather_S100000_S3300000x1_S3300000_n_0_n_n_0_1_1_wf : GatherDims.WF S100000 S3300000x1 S3300000 [] [0] [] [0] [] 1 ![1]
  dot_S100000x64_S64x64_S100000x64_1_0_0_1_n_n_wf : DotDims.WF S100000x64 S64x64 S100000x64 [1] [0] [0] [1] [] []
  gather_S100000x64_S3300000x1_S3300000x64_1_0_n_n_0_1_164_wf : GatherDims.WF S100000x64 S3300000x1 S3300000x64 [1] [0] [] [0] [] 1 ![1, 64]
  scatter_S100000x64_S3300000x1_S3300000x64_1_0_0_1_wf : ScatterDims.WF S100000x64 S3300000x1 S3300000x64 [1] [0] [0] 1

variable [Facts₀]

def scatter_S100000_S3300000x1_S3300000_n_0_0_1 : ScatterDims S100000 S3300000x1 S3300000 where
  updateWindowDims := []
  insertedWindowDims := [0]
  scatterDimsToOperandDims := [0]
  indexVectorDim := 1
  wf := scatter_S100000_S3300000x1_S3300000_n_0_0_1_wf
def gather_S100000_S3300000x1_S3300000_n_0_n_n_0_1_1 : GatherDims S100000 S3300000x1 S3300000 where
  offsetDims := []
  collapsedSliceDims := [0]
  operandBatchingDims := []
  startIndicesBatchingDims := []
  startIndexMap := [0]
  indexVectorDim := 1
  sliceSizes := ![1]
  wf := gather_S100000_S3300000x1_S3300000_n_0_n_n_0_1_1_wf
def dot_S100000x64_S64x64_S100000x64_1_0_0_1_n_n : DotDims S100000x64 S64x64 S100000x64 where
  lhsContracting := [1]
  rhsContracting := [0]
  lhsNonContracting := [0]
  rhsNonContracting := [1]
  lhsBatch := []
  rhsBatch := []
  wf := dot_S100000x64_S64x64_S100000x64_1_0_0_1_n_n_wf
def gather_S100000x64_S3300000x1_S3300000x64_1_0_n_n_0_1_164 : GatherDims S100000x64 S3300000x1 S3300000x64 where
  offsetDims := [1]
  collapsedSliceDims := [0]
  operandBatchingDims := []
  startIndicesBatchingDims := []
  startIndexMap := [0]
  indexVectorDim := 1
  sliceSizes := ![1, 64]
  wf := gather_S100000x64_S3300000x1_S3300000x64_1_0_n_n_0_1_164_wf
def scatter_S100000x64_S3300000x1_S3300000x64_1_0_0_1 : ScatterDims S100000x64 S3300000x1 S3300000x64 where
  updateWindowDims := [1]
  insertedWindowDims := [0]
  scatterDimsToOperandDims := [0]
  indexVectorDim := 1
  wf := scatter_S100000x64_S3300000x1_S3300000x64_1_0_0_1_wf

class Facts : Prop extends Facts₀ where

variable [Facts]
-- ==== Proof.Spec.lean ====
/-
  The three whole-array functions the four kernel regions compute at the exact (extended-real) reading, over the
  literal shapes of this program: a [100000, 64] array of node features, a [64, 64] weight, a [1, 64] row.

  * `matProd x w`   — the matrix product: entry (r, j) is the sum over k of x[r, k] · w[k, j];
  * `addRow a b`    — the row b added to every row of a: entry (r, j) is a[r, j] + b[0, j];
  * `addRowRelu a b` — the same followed by the maximum with zero (the literal zero word, never evaluated).

  Each is stated index by index; nothing here mentions a program.
-/
import Idealize.ShloMosaic.PureOps.Ideal
import Idealize.ShloMosaic.Lib.ValueIdx

noncomputable section

open scoped BigOperators

namespace Gcn

open Idealize.ShloMosaic Idealize.ShloMosaic.ValueIdx

/-- Node features: 100000 rows of 64. -/
abbrev Nodes : Shape := ⟨2, ![100000, 64]⟩
/-- A weight matrix: 64 by 64. -/
abbrev Wt : Shape := ⟨2, ![64, 64]⟩
/-- A bias laid out as one row of 64. -/
abbrev Row : Shape := ⟨2, ![1, 64]⟩

/-- The matrix product x · w: entry (r, j) is the sum over k of x[r, k] · w[k, j]. -/
def matProd (x : FVec Ideal Nodes .f32) (w : FVec Ideal Wt .f32) : FVec Ideal Nodes .f32 :=
  fun i => ∑ k : Fin 64, x (ix2 (n0 := 100000) (n1 := 64) (i 0) k) * w (ix2 (n0 := 64) (n1 := 64) k (i 1))

/-- The row b added to every row of a: entry (r, j) is a[r, j] + b[0, j]. -/
def addRow (a : FVec Ideal Nodes .f32) (b : FVec Ideal Row .f32) : FVec Ideal Nodes .f32 :=
  fun i => FloatOps.addf (a i) (b (ix2 (n0 := 1) (n1 := 64) 0 (i 1)))

/-- The row b added to every row of a, then the maximum with the zero word: entry (r, j) is max (a[r, j] + b[0, j]) 0. -/
def addRowRelu (a : FVec Ideal Nodes .f32) (b : FVec Ideal Row .f32) : FVec Ideal Nodes .f32 :=
  fun i => FloatOps.maximumf (FloatOps.addf (a i) (b (ix2 (n0 := 1) (n1 := 64) 0 (i 1)))) (FloatOps.ofBits .f32 0x00000000#32)

end Gcn

end
-- ==== Proof.RefBridge.lean ====
/-
  The reference's stages, read against the specification.

  Both programs send a [100000, 64] array `pre` through the same chain of host operations: gather the rows of `pre` at
  the (wrapped) source nodes `s`, scale each gathered row by the edge's normalisation `n`, and add the rows up at the
  destination nodes `d`, starting from zero. That chain is named here ONCE, as the function `aggOf` of the four
  values going in, and is never opened: the two programs agree because the values going in agree.

  Around it the reference applies `dot_general` (at the exact reading, the matrix product of the specification),
  adds a bias broadcast along the rows, and takes a maximum with zero: each of these is identified with the
  specification's function index by index, so that the reference's result is one closed expression over the
  specification's three functions and `aggOf`.
-/
import proofs.«172379_j24455543783860_1_alg».proof.Proof.RefRead
import proofs.«172379_j24455543783860_1_alg».proof.Proof.Spec
import Idealize.ShloMosaic.Lib.ValueLayout

noncomputable section

open scoped BigOperators

namespace Cert.ReferenceIdeal.Bridge

open Cert.ReferenceIdeal Cert.ReferenceIdeal.Gen Cert.ReferenceIdeal.ReadP Idealize.ShloMosaic Idealize.ShloMosaic.TcCoe Idealize.SL.Sem Idealize.ShloMosaic.StableHlo
open Idealize.ShloMosaic.ValueIdx

section Chain

variable {F : FTy → Type} [FloatOps F]

/-- The aggregation both programs apply to a node array `pre`: its rows gathered at the source nodes `s` (a negative
    index wrapped by the node count), each scaled by the edge weight `n`, summed into the destination nodes `d`. -/
def aggOf (pre : (⟨S100000x64, .f32⟩ : BufTy).Contents (Elt F)) (s d : (⟨S3300000, .i32⟩ : BufTy).Contents (Elt F))
    (n : (⟨S3300000, .f32⟩ : BufTy).Contents (Elt F)) : (⟨S100000x64, .f32⟩ : BufTy).Contents (Elt F) :=
  Host.scatterAdd scatter_S100000x64_S3300000x1_S3300000x64_1_0_0_1
    (broadcastInDim S100000x64 ![] bcast_S_S100000x64 (constant S_ .f32 0x00000000#32))
    (broadcastInDim S3300000x1 ![0] bcast_S3300000_S3300000x1_0 d)
    (mulf
      (Host.gather gather_S100000x64_S3300000x1_S3300000x64_1_0_n_n_0_1_164 pre
        (broadcastInDim S3300000x1 ![0] bcast_S3300000_S3300000x1_0
          (select (cmpi .slt s (broadcastInDim S3300000 ![] bcast_S_S3300000 (constantI S_ 32 0#32)))
            (addi s (broadcastInDim S3300000 ![] bcast_S_S3300000 (constantI S_ 32 100000#32))) s)))
      (broadcastInDim S3300000x64 ![0, 1] bcast_S3300000x1_S3300000x64_0_1
        (broadcastInDim S3300000x1 ![0] bcast_S3300000_S3300000x1_0 n)))

/-- The first layer's aggregate is the chain applied to the first product, the source and destination nodes and the
    edge weights. -/
theorem v45_eq (x0 : (⟨S100000x64, .f32⟩ : BufTy).Contents (Elt F)) (x1 : (⟨S2x3200000, .i32⟩ : BufTy).Contents (Elt F))
    (x2 : (⟨S64x64, .f32⟩ : BufTy).Contents (Elt F)) :
    val_main_v45 (F := F) x0 x1 x2
      = aggOf (val_main_v32 (F := F) x0 x2) (val_main_v3 (F := F) x1) (val_main_v6 (F := F) x1) (val_main_v31 (F := F) x1) := rfl

/-- The second layer's aggregate is the same chain applied to the second product. -/
theorem v63_eq (x0 : (⟨S100000x64, .f32⟩ : BufTy).Contents (Elt F)) (x1 : (⟨S2x3200000, .i32⟩ : BufTy).Contents (Elt F))
    (x2 : (⟨S64x64, .f32⟩ : BufTy).Contents (Elt F)) (x3 : (⟨S64, .f32⟩ : BufTy).Contents (Elt F))
    (x4 : (⟨S64x64, .f32⟩ : BufTy).Contents (Elt F)) :
    val_main_v63 (F := F) x0 x1 x2 x3 x4
      = aggOf (val_main_v50 (F := F) x0 x1 x2 x3 x4) (val_main_v3 (F := F) x1) (val_main_v6 (F := F) x1) (val_main_v31 (F := F) x1) := rfl

end Chain

/-! ## The dense stages at the exact reading -/

/-- The host's `dot_general` of a node array with a weight, contracting the node array's columns against the weight's
    rows, is the matrix product: the same sum over k at every entry. -/
theorem dot_eq (y : FVec Ideal S100000x64 .f32) (w : FVec Ideal S64x64 .f32) :
    Host.dotGeneral dot_S100000x64_S64x64_S100000x64_1_0_0_1_n_n none y w = Gcn.matProd y w := by
  funext i
  have h := val_main_v32_apply y w i
  unfold val_main_v32 at h
  rw [h]
  unfold Gcn.matProd
  refine Finset.sum_congr rfl fun k _ => ?_
  have el : lidx_main_v32 i k = ix2 (n0 := 100000) (n1 := 64) (i 0) k := funext fun a => by
    match a with
    | ⟨0, _⟩ => rfl
    | ⟨1, _⟩ => rfl
  have er : ridx_main_v32 i k = ix2 (n0 := 64) (n1 := 64) k (i 1) := funext fun a => by
    match a with
    | ⟨0, _⟩ => rfl
    | ⟨1, _⟩ => rfl
  rw [el, er]

/-- A bias of 64 entries laid out as one row: the [64] array cast to [1, 64]. -/
def rowOf (b : FVec Ideal S64 .f32) (h : S64.ShapeCasts S1x64) : FVec Ideal S1x64 .f32 :=
  shapeCast S1x64 b h

/-- The bias broadcast to every row, read at an entry: the bias at the entry's column. -/
theorem bias_at (b : FVec Ideal S64 .f32) (i : S100000x64.Idx) :
    broadcastInDim S100000x64 ![0, 1] bcast_S1x64_S100000x64_0_1 (broadcastInDim S1x64 ![1] bcast_S64_S1x64_1 b) i
      = b (ix1 (n := 64) (i 1)) := by
  have h1 := val_main_v47_apply (F := Ideal) b i
  unfold val_main_v47 val_main_v46 at h1
  rw [h1]
  have h2 := val_main_v46_apply (F := Ideal) b (idx_main_v47 i)
  unfold val_main_v46 at h2
  rw [h2]
  refine congrArg b (funext fun a => ?_)
  match a with
  | ⟨0, _⟩ => rfl

/-- The row layout read at (0, j) is the bias at j. -/
theorem rowOf_at (b : FVec Ideal S64 .f32) (h : S64.ShapeCasts S1x64) (q : Fin 64) :
    rowOf b h (ix2 (n0 := 1) (n1 := 64) 0 q) = b (ix1 q) :=
  shapeCast_a_1a_apply b h 0 q

/-- Adding the broadcast bias is adding the row to every row. -/
theorem addBias_eq (a : FVec Ideal S100000x64 .f32) (b : FVec Ideal S64 .f32)
    (h : S64.ShapeCasts S1x64) :
    addf a (broadcastInDim S100000x64 ![0, 1] bcast_S1x64_S100000x64_0_1 (broadcastInDim S1x64 ![1] bcast_S64_S1x64_1 b))
      = Gcn.addRow a (rowOf b h) := by
  funext i
  have e := bias_at b i
  have e' := rowOf_at b h (i 1)
  unfold Gcn.addRow
  show FloatOps.addf (a i) _ = FloatOps.addf (a i) _
  rw [e, e']

/-- Adding the broadcast bias and taking the maximum with the zero splat is the specification's rectified sum. -/
theorem addBiasRelu_eq (a : FVec Ideal S100000x64 .f32) (b : FVec Ideal S64 .f32)
    (h : S64.ShapeCasts S1x64) :
    maximumf (addf a (broadcastInDim S100000x64 ![0, 1] bcast_S1x64_S100000x64_0_1 (broadcastInDim S1x64 ![1] bcast_S64_S1x64_1 b)))
        (broadcastInDim S100000x64 ![] bcast_S_S100000x64 (constant S_ .f32 0x00000000#32))
      = Gcn.addRowRelu a (rowOf b h) := by
  funext i
  have e := bias_at b i
  have e' := rowOf_at b h (i 1)
  have hz := val_main_call1_v0_apply (F := Ideal) i
  unfold val_main_call1_v0 val_main_call1_cst at hz
  unfold Gcn.addRowRelu
  show FloatOps.maximumf (FloatOps.addf (a i) _) _ = FloatOps.maximumf (FloatOps.addf (a i) _) _
  rw [e, e', hz]
  rfl

/-- THE REFERENCE'S RESULT as one expression: the second layer's bias added to the aggregate of the second product,
    whose left factor is the rectified, biased aggregate of the first product. -/
theorem v66_eq (x0 : FVec Ideal S100000x64 .f32) (x1 : (⟨S2x3200000, .i32⟩ : BufTy).Contents (Elt Ideal))
    (x2 : FVec Ideal S64x64 .f32) (x3 : FVec Ideal S64 .f32)
    (x4 : FVec Ideal S64x64 .f32) (x5 : FVec Ideal S64 .f32)
    (h : S64.ShapeCasts S1x64) :
    val_main_v66 (F := Ideal) x0 x1 x2 x3 x4 x5
      = Gcn.addRow
          (aggOf
            (Gcn.matProd
              (Gcn.addRowRelu
                (aggOf (Gcn.matProd x0 x2) (val_main_v3 (F := Ideal) x1) (val_main_v6 (F := Ideal) x1) (val_main_v31 (F := Ideal) x1))
                (rowOf x3 h))
              x4)
            (val_main_v3 (F := Ideal) x1) (val_main_v6 (F := Ideal) x1) (val_main_v31 (F := Ideal) x1))
          (rowOf x5 h) := by
  have e32 : val_main_v32 (F := Ideal) x0 x2 = Gcn.matProd x0 x2 := dot_eq x0 x2
  have e49 : val_main_v49 (F := Ideal) x0 x1 x2 x3 = Gcn.addRowRelu (val_main_v45 (F := Ideal) x0 x1 x2) (rowOf x3 h) :=
    addBiasRelu_eq (val_main_v45 (F := Ideal) x0 x1 x2) x3 h
  have e50 : val_main_v50 (F := Ideal) x0 x1 x2 x3 x4 = Gcn.matProd (val_main_v49 (F := Ideal) x0 x1 x2 x3) x4 :=
    dot_eq (val_main_v49 (F := Ideal) x0 x1 x2 x3) x4
  have e66 : val_main_v66 (F := Ideal) x0 x1 x2 x3 x4 x5 = Gcn.addRow (val_main_v63 (F := Ideal) x0 x1 x2 x3 x4) (rowOf x5 h) :=
    addBias_eq (val_main_v63 (F := Ideal) x0 x1 x2 x3 x4) x5 h
  rw [e66, v63_eq, e50, e49, v45_eq, e32]

end Cert.ReferenceIdeal.Bridge

end
-- ==== Proof.KHost.lean ====
/-
  The kernel program's host stretches, read.

  Between its four regions the kernel program runs the same host operations as the reference. Read at the buffers
  later stages use, the first stretch leaves the source nodes, the destination nodes and the edge weights — the
  reference's own stages of the edge list —, the stretch after the first region leaves the aggregation chain applied
  to the first region's output beside the first bias laid out as a row, and the stretch after the third region the
  chain applied to the third region's output beside the second bias as a row. A buffer no operation of a stretch
  writes, and no window of a region covers, holds afterwards what it held before: the arguments and the three
  edge-derived arrays travel unchanged from the first stretch to where they are read.
  Everything here holds for any float family.
-/
import proofs.«172379_j24455543783860_1_alg».proof.Proof.Gen.KernelIdeal.Frame
import proofs.«172379_j24455543783860_1_alg».proof.Proof.RefBridge

set_option maxRecDepth 16384

noncomputable section

namespace Cert.KernelIdeal.Host

open Idealize.ShloMosaic Idealize.ShloMosaic.TcCoe Idealize.SL.Sem Idealize.ShloMosaic.StableHlo
open Cert.KernelIdeal Cert.KernelIdeal.Gen

variable {F : FTy → Type} [FloatOps F]
variable (m : (ℓ : Loc nD τ sig) → Buf (Elt F) ℓ) (ρ : Dev nD → PrngReg)

/-! ## The first stretch: the arguments pass through; the edge list's three derived arrays -/

theorem W3_arg0 (c : Dev nD) : W3 m ρ c (Proc.devRef .tc main_arg0) = m ((c : Thread nD τ).loc main_arg0) := by
  dsimp only [W3, W2, W1, hostOps0, hostOps0_1, hostOps0_2]
  after_results_simp <;> rfl
theorem W3_arg2 (c : Dev nD) : W3 m ρ c (Proc.devRef .tc main_arg2) = m ((c : Thread nD τ).loc main_arg2) := by
  dsimp only [W3, W2, W1, hostOps0, hostOps0_1, hostOps0_2]
  after_results_simp <;> rfl
theorem W3_arg3 (c : Dev nD) : W3 m ρ c (Proc.devRef .tc main_arg3) = m ((c : Thread nD τ).loc main_arg3) := by
  dsimp only [W3, W2, W1, hostOps0, hostOps0_1, hostOps0_2]
  after_results_simp <;> rfl
theorem W3_arg4 (c : Dev nD) : W3 m ρ c (Proc.devRef .tc main_arg4) = m ((c : Thread nD τ).loc main_arg4) := by
  dsimp only [W3, W2, W1, hostOps0, hostOps0_1, hostOps0_2]
  after_results_simp <;> rfl
theorem W3_arg5 (c : Dev nD) : W3 m ρ c (Proc.devRef .tc main_arg5) = m ((c : Thread nD τ).loc main_arg5) := by
  dsimp only [W3, W2, W1, hostOps0, hostOps0_1, hostOps0_2]
  after_results_simp <;> rfl

/-- The source nodes (the edge list's first row followed by the self loops). -/
theorem W3_v3 (c : Dev nD) :
    W3 m ρ c (Proc.devRef .tc main_v3) = Cert.ReferenceIdeal.ReadP.val_main_v3 (F := F) (m ((c : Thread nD τ).loc main_arg1)) := by
  dsimp only [W3, W2, W1, hostOps0, hostOps0_1, hostOps0_2]
  after_results
  rfl

/-- The destination nodes (the edge list's second row followed by the self loops). -/
theorem W3_v6 (c : Dev nD) :
    W3 m ρ c (Proc.devRef .tc main_v6) = Cert.ReferenceIdeal.ReadP.val_main_v6 (F := F) (m ((c : Thread nD τ).loc main_arg1)) := by
  dsimp only [W3, W2, W1, hostOps0, hostOps0_1, hostOps0_2]
  after_results
  rfl

set_option maxHeartbeats 4000000 in
/-- The edge weights (the product of the two end nodes' inverse square-root degrees). -/
theorem W3_v31 (c : Dev nD) :
    W3 m ρ c (Proc.devRef .tc main_v31) = Cert.ReferenceIdeal.ReadP.val_main_v31 (F := F) (m ((c : Thread nD τ).loc main_arg1)) := by
  dsimp only [W3, W2, W1, hostOps0, hostOps0_1, hostOps0_2]
  after_results_simp
  repeat (first
    | rw [nullary_result] | rw [unary_result] | rw [binary_result] | rw [reshape_result]
    | (rw [nullary_result_ne]; rotate_left; decide)
    | (rw [unary_result_ne]; rotate_left; decide)
    | (rw [binary_result_ne]; rotate_left; decide)
    | (rw [reshape_result_ne]; rotate_left; decide))
  rfl

/-! ## The stretch after the first region -/

/-- The first layer's aggregate: the chain applied to the first region's output. -/
theorem W5_v45 (c : Dev nD) :
    W5 m ρ c (Proc.devRef .tc main_v45)
      = Cert.ReferenceIdeal.Bridge.aggOf (F := F) (W4 m ρ c (Proc.devRef .tc main_v32)) (W4 m ρ c (Proc.devRef .tc main_v3))
          (W4 m ρ c (Proc.devRef .tc main_v6)) (W4 m ρ c (Proc.devRef .tc main_v31)) := by
  dsimp only [W5, hostOps1]
  after_results_simp
  rfl

/-- The first bias as a row. -/
theorem W5_v46 (c : Dev nD) :
    W5 m ρ c (Proc.devRef .tc main_v46) = shapeCast S1x64 (W4 m ρ c (Proc.devRef .tc main_arg3)) shapeCasts_S64_S1x64 := by
  dsimp only [W5, hostOps1]
  after_results_simp <;> rfl

theorem W5_v3 (c : Dev nD) : W5 m ρ c (Proc.devRef .tc main_v3) = W4 m ρ c (Proc.devRef .tc main_v3) := by
  dsimp only [W5, hostOps1]
  after_results_simp <;> rfl
theorem W5_v6 (c : Dev nD) : W5 m ρ c (Proc.devRef .tc main_v6) = W4 m ρ c (Proc.devRef .tc main_v6) := by
  dsimp only [W5, hostOps1]
  after_results_simp <;> rfl
theorem W5_v31 (c : Dev nD) : W5 m ρ c (Proc.devRef .tc main_v31) = W4 m ρ c (Proc.devRef .tc main_v31) := by
  dsimp only [W5, hostOps1]
  after_results_simp <;> rfl
theorem W5_arg4 (c : Dev nD) : W5 m ρ c (Proc.devRef .tc main_arg4) = W4 m ρ c (Proc.devRef .tc main_arg4) := by
  dsimp only [W5, hostOps1]
  after_results_simp <;> rfl
theorem W5_arg5 (c : Dev nD) : W5 m ρ c (Proc.devRef .tc main_arg5) = W4 m ρ c (Proc.devRef .tc main_arg5) := by
  dsimp only [W5, hostOps1]
  after_results_simp <;> rfl

/-! ## The stretch after the third region -/

/-- The second layer's aggregate: the chain applied to the third region's output. -/
theorem W8_v61 (c : Dev nD) :
    W8 m ρ c (Proc.devRef .tc main_v61)
      = Cert.ReferenceIdeal.Bridge.aggOf (F := F) (W7 m ρ c (Proc.devRef .tc main_v48)) (W7 m ρ c (Proc.devRef .tc main_v3))
          (W7 m ρ c (Proc.devRef .tc main_v6)) (W7 m ρ c (Proc.devRef .tc main_v31)) := by
  dsimp only [W8, hostOps3]
  after_results_simp
  rfl

/-- The second bias as a row. -/
theorem W8_v62 (c : Dev nD) :
    W8 m ρ c (Proc.devRef .tc main_v62) = shapeCast S1x64 (W7 m ρ c (Proc.devRef .tc main_arg5)) shapeCasts_S64_S1x64 := by
  dsimp only [W8, hostOps3]
  after_results_simp <;> rfl

/-! ## What travels unchanged to where it is read -/

/-- At the first region's exit (where the next stretch reads them). -/
theorem W4_v3 (c : Dev nD) : W4 m ρ c (Proc.devRef .tc main_v3) = Cert.ReferenceIdeal.ReadP.val_main_v3 (F := F) (m ((c : Thread nD τ).loc main_arg1)) :=
  (W4_of_ne m ρ c main_v3 (by decide)).trans (W3_v3 m ρ c)
theorem W4_v6 (c : Dev nD) : W4 m ρ c (Proc.devRef .tc main_v6) = Cert.ReferenceIdeal.ReadP.val_main_v6 (F := F) (m ((c : Thread nD τ).loc main_arg1)) :=
  (W4_of_ne m ρ c main_v6 (by decide)).trans (W3_v6 m ρ c)
theorem W4_v31 (c : Dev nD) : W4 m ρ c (Proc.devRef .tc main_v31) = Cert.ReferenceIdeal.ReadP.val_main_v31 (F := F) (m ((c : Thread nD τ).loc main_arg1)) :=
  (W4_of_ne m ρ c main_v31 (by decide)).trans (W3_v31 m ρ c)
theorem W4_arg3 (c : Dev nD) : W4 m ρ c (Proc.devRef .tc main_arg3) = m ((c : Thread nD τ).loc main_arg3) :=
  (W4_of_ne m ρ c main_arg3 (by decide)).trans (W3_arg3 m ρ c)
theorem W4_arg4 (c : Dev nD) : W4 m ρ c (Proc.devRef .tc main_arg4) = m ((c : Thread nD τ).loc main_arg4) :=
  (W4_of_ne m ρ c main_arg4 (by decide)).trans (W3_arg4 m ρ c)
theorem W4_arg5 (c : Dev nD) : W4 m ρ c (Proc.devRef .tc main_arg5) = m ((c : Thread nD τ).loc main_arg5) :=
  (W4_of_ne m ρ c main_arg5 (by decide)).trans (W3_arg5 m ρ c)

/-- At the third region's entry: its weight. -/
theorem W6_arg4 (c : Dev nD) : W6 m ρ c (Proc.devRef .tc main_arg4) = m ((c : Thread nD τ).loc main_arg4) :=
  (W6_of_ne m ρ c main_arg4 (by decide)).trans ((W5_arg4 m ρ c).trans (W4_arg4 m ρ c))

/-- At the third region's exit (where the last stretch reads them). -/
theorem W7_v3 (c : Dev nD) : W7 m ρ c (Proc.devRef .tc main_v3) = Cert.ReferenceIdeal.ReadP.val_main_v3 (F := F) (m ((c : Thread nD τ).loc main_arg1)) :=
  (W7_of_ne m ρ c main_v3 (by decide)).trans ((W6_of_ne m ρ c main_v3 (by decide)).trans ((W5_v3 m ρ c).trans (W4_v3 m ρ c)))
theorem W7_v6 (c : Dev nD) : W7 m ρ c (Proc.devRef .tc main_v6) = Cert.ReferenceIdeal.ReadP.val_main_v6 (F := F) (m ((c : Thread nD τ).loc main_arg1)) :=
  (W7_of_ne m ρ c main_v6 (by decide)).trans ((W6_of_ne m ρ c main_v6 (by decide)).trans ((W5_v6 m ρ c).trans (W4_v6 m ρ c)))
theorem W7_v31 (c : Dev nD) : W7 m ρ c (Proc.devRef .tc main_v31) = Cert.ReferenceIdeal.ReadP.val_main_v31 (F := F) (m ((c : Thread nD τ).loc main_arg1)) :=
  (W7_of_ne m ρ c main_v31 (by decide)).trans ((W6_of_ne m ρ c main_v31 (by decide)).trans ((W5_v31 m ρ c).trans (W4_v31 m ρ c)))
theorem W7_arg5 (c : Dev nD) : W7 m ρ c (Proc.devRef .tc main_arg5) = m ((c : Thread nD τ).loc main_arg5) :=
  (W7_of_ne m ρ c main_arg5 (by decide)).trans ((W6_of_ne m ρ c main_arg5 (by decide)).trans ((W5_arg5 m ρ c).trans (W4_arg5 m ρ c)))

end Cert.KernelIdeal.Host

end
-- ==== Proof.KValue.lean ====
/-
  The kernel program's result array, as one expression over the specification.

  Walking the fold of buffer contents through @main backwards from the result: the last region leaves the second bias
  row added to the array the last host stretch built, which is the aggregation chain applied to the third region's
  output, the matrix product of the second region's output with the second weight; the second region's output is the
  rectified sum of the first bias row and the aggregation chain applied to the first region's output, the matrix
  product of the node features with the first weight. The source nodes, destination nodes and edge weights reach both
  uses of the chain unchanged from the first stretch. The four regions' whole-array values are taken as hypotheses here
  (each is a statement about one region at arbitrary entry contents).
-/
import proofs.«172379_j24455543783860_1_alg».proof.Proof.KHost

set_option maxRecDepth 16384

noncomputable section

namespace Cert.KernelIdeal.Chain

open Idealize.ShloMosaic Idealize.ShloMosaic.TcCoe Idealize.SL.Sem Idealize.ShloMosaic.StableHlo
open Cert.KernelIdeal Cert.KernelIdeal.Gen Cert.KernelIdeal.Host
open Cert.ReferenceIdeal.Bridge (aggOf rowOf)

variable (m : (ℓ : Loc nD τ sig) → Buf (Elt Ideal) ℓ) (ρ : Dev nD → PrngReg)

/-- What the four regions compute, each at arbitrary entry contents `V`. -/
structure RegionValues : Prop where
  r0 : ∀ (V : (c : Dev nD) → (b : Ref sig .tc) → Buf (Elt Ideal) ((c : Thread nD τ).loc b)) (c : Dev nD),
    (dat0 (F := Ideal) V c).arrAt 2 cfg0.N = Gcn.matProd (V c main_arg0) (V c main_arg2)
  r1 : ∀ (V : (c : Dev nD) → (b : Ref sig .tc) → Buf (Elt Ideal) ((c : Thread nD τ).loc b)) (c : Dev nD),
    (dat1 (F := Ideal) V c).arrAt 2 cfg1.N = Gcn.addRowRelu (V c main_v45) (V c main_v46)
  r2 : ∀ (V : (c : Dev nD) → (b : Ref sig .tc) → Buf (Elt Ideal) ((c : Thread nD τ).loc b)) (c : Dev nD),
    (dat2 (F := Ideal) V c).arrAt 2 cfg2.N = Gcn.matProd (V c main_v47) (V c main_arg4)
  r3 : ∀ (V : (c : Dev nD) → (b : Ref sig .tc) → Buf (Elt Ideal) ((c : Thread nD τ).loc b)) (c : Dev nD),
    (dat3 (F := Ideal) V c).arrAt 2 cfg3.N = Gcn.addRow (V c main_v61) (V c main_v62)

/-- After the first region: the first product. -/
theorem at_v32 (hr : RegionValues) (c : Dev nD) :
    W4 m ρ c (Proc.devRef .tc main_v32) = Gcn.matProd (m ((c : Thread nD τ).loc main_arg0)) (m ((c : Thread nD τ).loc main_arg2)) := by
  have h : W4 m ρ c (Proc.devRef .tc main_v32) = (dat0 (V3 m ρ) c).arrAt 2 cfg0.N := W4_arr m ρ c 2
  rw [h, hr.r0 (V3 m ρ) c]
  show Gcn.matProd (W3 m ρ c (Proc.devRef .tc main_arg0)) (W3 m ρ c (Proc.devRef .tc main_arg2)) = _
  rw [W3_arg0, W3_arg2]

/-- After the second region: the rectified, biased aggregate of the first product. -/
theorem at_v47 (hr : RegionValues) (c : Dev nD) :
    W6 m ρ c (Proc.devRef .tc main_v47)
      = Gcn.addRowRelu
          (aggOf (Gcn.matProd (m ((c : Thread nD τ).loc main_arg0)) (m ((c : Thread nD τ).loc main_arg2)))
            (Cert.ReferenceIdeal.ReadP.val_main_v3 (F := Ideal) (m ((c : Thread nD τ).loc main_arg1)))
            (Cert.ReferenceIdeal.ReadP.val_main_v6 (F := Ideal) (m ((c : Thread nD τ).loc main_arg1)))
            (Cert.ReferenceIdeal.ReadP.val_main_v31 (F := Ideal) (m ((c : Thread nD τ).loc main_arg1))))
          (rowOf (m ((c : Thread nD τ).loc main_arg3)) shapeCasts_S64_S1x64) := by
  have h : W6 m ρ c (Proc.devRef .tc main_v47) = (dat1 (V5 m ρ) c).arrAt 2 cfg1.N := W6_arr m ρ c 2
  rw [h, hr.r1 (V5 m ρ) c]
  show Gcn.addRowRelu (W5 m ρ c (Proc.devRef .tc main_v45)) (W5 m ρ c (Proc.devRef .tc main_v46)) = _
  rw [W5_v45, W5_v46, at_v32 m ρ hr, W4_v3, W4_v6, W4_v31, W4_arg3]
  rfl

/-- After the third region: the second product. -/
theorem at_v48 (hr : RegionValues) (c : Dev nD) :
    W7 m ρ c (Proc.devRef .tc main_v48)
      = Gcn.matProd
          (Gcn.addRowRelu
            (aggOf (Gcn.matProd (m ((c : Thread nD τ).loc main_arg0)) (m ((c : Thread nD τ).loc main_arg2)))
              (Cert.ReferenceIdeal.ReadP.val_main_v3 (F := Ideal) (m ((c : Thread nD τ).loc main_arg1)))
              (Cert.ReferenceIdeal.ReadP.val_main_v6 (F := Ideal) (m ((c : Thread nD τ).loc main_arg1)))
              (Cert.ReferenceIdeal.ReadP.val_main_v31 (F := Ideal) (m ((c : Thread nD τ).loc main_arg1))))
            (rowOf (m ((c : Thread nD τ).loc main_arg3)) shapeCasts_S64_S1x64))
          (m ((c : Thread nD τ).loc main_arg4)) := by
  have h : W7 m ρ c (Proc.devRef .tc main_v48) = (dat2 (V6 m ρ) c).arrAt 2 cfg2.N := W7_arr m ρ c 2
  rw [h, hr.r2 (V6 m ρ) c]
  show Gcn.matProd (W6 m ρ c (Proc.devRef .tc main_v47)) (W6 m ρ c (Proc.devRef .tc main_arg4)) = _
  rw [at_v47 m ρ hr, W6_arg4]

/-- THE KERNEL PROGRAM'S RESULT is the reference's last stage of the same arguments. -/
theorem out_eq (hr : RegionValues) (c : Dev nD) :
    W9 m ρ c (Proc.devRef .tc main_v63)
      = Cert.ReferenceIdeal.ReadP.val_main_v66 (F := Ideal) (m ((c : Thread nD τ).loc main_arg0)) (m ((c : Thread nD τ).loc main_arg1))
          (m ((c : Thread nD τ).loc main_arg2)) (m ((c : Thread nD τ).loc main_arg3)) (m ((c : Thread nD τ).loc main_arg4))
          (m ((c : Thread nD τ).loc main_arg5)) := by
  have h : W9 m ρ c (Proc.devRef .tc main_v63) = (dat3 (V8 m ρ) c).arrAt 2 cfg3.N := W9_arr m ρ c 2
  rw [h, hr.r3 (V8 m ρ) c]
  show Gcn.addRow (W8 m ρ c (Proc.devRef .tc main_v61)) (W8 m ρ c (Proc.devRef .tc main_v62)) = _
  rw [W8_v61, W8_v62, at_v48 m ρ hr, W7_v3, W7_v6, W7_v31, W7_arg5]
  exact (Cert.ReferenceIdeal.Bridge.v66_eq _ _ _ _ _ _ shapeCasts_S64_S1x64).symm

end Cert.KernelIdeal.Chain

end
-- ==== Proof.Reg0.lean ====
import proofs.«172379_j24455543783860_1_alg».proof.Proof.Gen.KernelIdeal.Frame
import proofs.«172379_j24455543783860_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg0

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## One block of the product, read at an index -/

/-- Both offsets of the body's load rectangles and of its store rectangle are zero. -/
theorem origin_zero : (![0, 0] : Fin 2 → Nat) = fun _ => 0 :=
  funext fun a => by match a with | ⟨0, _⟩ => rfl | ⟨1, _⟩ => rfl

/-- Left operand, row axis: the row of the output entry. -/
theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Left operand, column axis: the contraction coordinate. -/
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Right operand, row axis: the contraction coordinate. -/
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Right operand, column axis: the column of the output entry. -/
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the body's result: the sum over k of the left block's entry (p, k) times the weight's entry (k, q).
    Over the ideal reals the change of float format is the identity and the accumulator is the zero array. -/
theorem blockProd_apply (x0 : Vec Ideal S5000x64 .f32) (x1 : Vec Ideal S64x64 .f32) (p : Fin 5000) (q : Fin 64) :
    k0_pay1 (F := Ideal) x0 x1 (ix2 (n0 := 5000) (n1 := 64) p q)
      = ∑ k : Fin 64, x0 (ix2 (n0 := 5000) (n1 := 64) p k) * x1 (ix2 (n0 := 64) (n1 := 64) k q) := by
  unfold k0_pay1
  simp only [matmul]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 (n0 := 5000) (n1 := 64) p q) ((contrEquiv1 dot_S5000x64_S64x64_S5000x64_1_0_0_1_n_n 64 rfl rfl).symm k) = ix2 (n0 := 5000) (n1 := 64) p k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx (ix2 (n0 := 5000) (n1 := 64) p q) ((contrEquiv1 dot_S5000x64_S64x64_S5000x64_1_0_0_1_n_n 64 rfl rfl).symm k) = ix2 (n0 := 64) (n1 := 64) k q := funext fun a => Fin.ext (by
    match a with
    | ⟨0, _⟩ => exact (rhs_blk_0 _ _).trans hk
    | ⟨1, _⟩ => exact rhs_blk_1 _ _)
  rw [el, er]
  rfl

/-! ## From the blocks to the whole array -/

/-- The printed index maps over the twenty grid points: the left operand's block moves with the output's block down the
    rows, the weight is one block, and every block starts at column zero. -/
theorem idx_facts : ∀ t : Fin cfg0.N, win0_0.index t (0 : Fin 2) = win0_2.index t (0 : Fin 2)
    ∧ win0_0.index t (1 : Fin 2) = 0
    ∧ win0_1.index t (0 : Fin 2) = 0
    ∧ win0_1.index t (1 : Fin 2) = 0
    ∧ win0_2.index t (1 : Fin 2) = 0
    ∧ win0_2.index t (0 : Fin 2) ≤ 19 :=
  (by decide +kernel : ∀ t : Fin grid0.N, _)

/-- Every one of the twenty row blocks is some point's output block. -/
theorem idx_onto : ∀ q0 : Fin 20, ∃ t : Fin cfg0.N, win0_2.index t = ![q0.val, 0] :=
  (by decide +kernel : ∀ q0 : Fin 20, ∃ t : Fin grid0.N, win0_2.index t = ![q0.val, 0])

/-- WHAT POINT t WRITES BACK is block t of the matrix product of the two arrays the region reads. -/
theorem flushed_eq (c : Dev nD) (t : Fin cfg0.N) :
    (dat0 (F := Ideal) V c).flushed 2 t
      = ((cfg0.win 2).blk t).view.read (Elt Ideal) (Gcn.matProd (V c main_arg0) (V c main_arg2)) := by
  show (cfg0.win 2).cut (grid0.coords t) ((dat0 (F := Ideal) V c).after 2 t) = _
  rw [after0_2]
  unfold out0_2
  rw [View.canon_unit_zero origin_zero]
  simp only [View.ld_unit_zero (S := S5000x64) origin_zero, View.ld_unit_zero (S := S64x64) origin_zero]
  obtain ⟨e0, e1, e2, e3, e4, e5⟩ := idx_facts t
  funext j
  have hj : j = ix2 (n0 := 5000) (n1 := 64) (j 0) (j 1) := eq_ix2 (n0 := 5000) (n1 := 64) j
  show k0_pay1 (F := Ideal) (iblk0 V c 0 t) (iblk0 V c 1 t) j
      = Gcn.matProd (V c main_arg0) (V c main_arg2) (((cfg0.win 2).blk t).view.emb j)
  refine ((congrArg (k0_pay1 (F := Ideal) (iblk0 V c 0 t) (iblk0 V c 1 t)) hj).trans
    (blockProd_apply (iblk0 V c 0 t) (iblk0 V c 1 t) (j 0) (j 1))).trans ?_
  refine Finset.sum_congr rfl fun k _ => ?_
  have hl : ((cfg0.win 0).blk t).view.emb (ix2 (n0 := 5000) (n1 := 64) (j 0) k)
      = ix2 (n0 := 100000) (n1 := 64) ((((cfg0.win 2).blk t).view.emb j) 0) k := by
    funext a; apply Fin.ext
    match a with
    | ⟨0, _⟩ => show win0_0.index t (0 : Fin 2) * 5000 + 1 * (j 0).val = win0_2.index t (0 : Fin 2) * 5000 + 1 * (j 0).val; omega
    | ⟨1, _⟩ => show win0_0.index t (1 : Fin 2) * 64 + 1 * k.val = k.val; omega
  have hr : ((cfg0.win 1).blk t).view.emb (ix2 (n0 := 64) (n1 := 64) k (j 1))
      = ix2 (n0 := 64) (n1 := 64) k ((((cfg0.win 2).blk t).view.emb j) 1) := by
    funext a; apply Fin.ext
    match a with
    | ⟨0, _⟩ => show win0_1.index t (0 : Fin 2) * 64 + 1 * k.val = k.val; omega
    | ⟨1, _⟩ => show win0_1.index t (1 : Fin 2) * 64 + 1 * (j 1).val = win0_2.index t (1 : Fin 2) * 64 + 1 * (j 1).val; omega
  have h1 : iblk0 (F := Ideal) V c 0 t (ix2 (n0 := 5000) (n1 := 64) (j 0) k)
      = V c main_arg0 (ix2 (n0 := 100000) (n1 := 64) ((((cfg0.win 2).blk t).view.emb j) 0) k) :=
    congrArg (V c main_arg0) hl
  have h2 : iblk0 (F := Ideal) V c 1 t (ix2 (n0 := 64) (n1 := 64) k (j 1))
      = V c main_arg2 (ix2 (n0 := 64) (n1 := 64) k ((((cfg0.win 2).blk t).view.emb j) 1)) :=
    congrArg (V c main_arg2) hr
  exact congrArg₂ _ h1 h2

/-- An index of the output array is in point t's block iff each coordinate is in the block's range on its axis. -/
theorem mem_blk (t : Fin cfg0.N) (i : S100000x64.Idx) :
    i ∈ ((cfg0.win 2).blk t).view.set ↔ ∀ a : Fin 2, win0_2.index t a * S5000x64.size a ≤ (i a).val ∧ (i a).val < win0_2.index t a * S5000x64.size a + S5000x64.size a := by
  show i ∈ ((View.whole main_v32).slice (win0_2.rect t)).set ↔ _
  rw [View.set_slice_whole, Rect.mem_set_unit]
  exact Iff.rfl

/-- The twenty blocks of 5000 rows fill the 100000 rows: row r is in the block of point r / 5000. -/
theorem covered (i : S100000x64.Idx) :
    ∃ t : Fin cfg0.N, (cfg0.win 2).flush t = true ∧ i ∈ ((cfg0.win 2).blk t).view.set := by
  have hi0 : (i 0).val < 100000 := (i 0).isLt
  have hi1 : (i 1).val < 64 := (i 1).isLt
  obtain ⟨t, ht⟩ := idx_onto ⟨(i 0).val / 5000, by omega⟩
  have q0 : win0_2.index t (0 : Fin 2) = (i 0).val / 5000 := congrFun ht 0
  have q1 : win0_2.index t (1 : Fin 2) = 0 := congrFun ht 1
  refine ⟨t, flush0_2 t, ?_⟩
  rw [mem_blk]
  intro a
  match a with
  | ⟨0, _⟩ => show win0_2.index t (0 : Fin 2) * 5000 ≤ (i 0).val ∧ (i 0).val < win0_2.index t (0 : Fin 2) * 5000 + 5000; omega
  | ⟨1, _⟩ => show win0_2.index t (1 : Fin 2) * 64 ≤ (i 1).val ∧ (i 1).val < win0_2.index t (1 : Fin 2) * 64 + 64; omega

theorem arr (c : Dev nD) :
    (dat0 (F := Ideal) V c).arrAt 2 cfg0.N = Gcn.matProd (V c main_arg0) (V c main_arg2) :=
  (dat0 (F := Ideal) V c).arrAt_eq_of_cover 2 _ (fun t _ => flushed_eq V c t) (fun i => covered i)

end Cert.KernelIdeal.Reg0

end
-- ==== Proof.Reg1.lean ====
import proofs.«172379_j24455543783860_1_alg».proof.Proof.Gen.KernelIdeal.Frame
import proofs.«172379_j24455543783860_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg1

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's stored value at one index -/

/-- A whole-buffer access starts at offset zero on both axes. -/
theorem off_zero : (![0, 0] : Fin 2 → Nat) = fun _ => 0 := funext fun a => by fin_cases a <;> rfl

/-- The value the body stores, read at row `p` and column `q` of the block: the block's entry plus the bias row's entry
    in column `q`, then the maximum with zero. The two shape casts are to the same shape; the row is broadcast
    along the rows, so only its column coordinate is read. -/
theorem pay_apply (x0 : Vec Ideal S5000x64 .f32) (x1 : Vec Ideal S1x64 .f32) (p : Fin 5000) (q : Fin 64) :
    k1_pay1 (F := Ideal) x0 x1 (ix2 p q)
      = FloatOps.maximumf (F := Ideal) (FloatOps.addf (F := Ideal) (x0 (ix2 p q)) (x1 (ix2 (n0 := 1) (n1 := 64) 0 q))) (FloatOps.ofBits (F := Ideal) .f32 0x00000000#32) := by
  unfold k1_pay1
  rw [shapeCast_self, shapeCast_self]
  show FloatOps.maximumf (F := Ideal) (FloatOps.addf (F := Ideal) (x0 (ix2 p q)) (broadcastTo S5000x64 x1 broadcasts_S1x64_S5000x64 (ix2 p q))) (FloatOps.ofBits (F := Ideal) .f32 0x00000000#32) = _
  rw [broadcastTo_apply x1 broadcasts_S1x64_S5000x64 (ix2 p q) (ix2 (n0 := 1) (n1 := 64) 0 q) (by
    intro a
    match a with
    | ⟨0, _⟩ => rfl
    | ⟨1, _⟩ => rfl)]

/-! ## From the blocks to the whole array -/

/-- The index maps, decided once over the twenty grid points: at point `t` the input block and the output block are
    block row `t` (block column 0) of their arrays, and the bias row is its one block. -/
theorem index_facts : ∀ t : Fin cfg1.N,
    win1_0.index t (0 : Fin 2) = t.val ∧ win1_0.index t (1 : Fin 2) = 0
    ∧ win1_1.index t (0 : Fin 2) = 0 ∧ win1_1.index t (1 : Fin 2) = 0
    ∧ win1_2.index t (0 : Fin 2) = t.val ∧ win1_2.index t (1 : Fin 2) = 0 :=
  (by decide +kernel : ∀ t : Fin grid1.N, _)

/-- What point `t` writes back is block `t` of the row-biased array: the input block lies over the same rows and
    columns as the output block, and the row's entry is read in the output's column. -/
theorem flushed_eq (c : Dev nD) (t : Fin cfg1.N) :
    (dat1 (F := Ideal) V c).flushed 2 t
      = ((cfg1.win 2).blk t).view.read (Elt Ideal) (Gcn.addRowRelu (V c main_v45) (V c main_v46)) := by
  show (cfg1.win 2).cut (grid1.coords t) ((dat1 V c).after 2 t) = _
  rw [after1_2]
  unfold out1_2
  rw [View.canon_unit_zero off_zero]
  simp only [View.ld_unit_zero (S := S5000x64) off_zero, View.ld_unit_zero (S := S1x64) off_zero]
  obtain ⟨e00, e01, e10, e11, e20, e21⟩ := index_facts t
  funext j
  obtain ⟨p, q, rfl⟩ : ∃ (p : Fin 5000) (q : Fin 64), j = ix2 p q := ⟨j 0, j 1, eq_ix2 j⟩
  refine (pay_apply (iblk1 V c 0 t) (iblk1 V c 1 t) p q).trans ?_
  -- the input block's entry (p, q) is the array's entry at the output block's (p, q)
  have h0 : ((cfg1.win 0).blk t).view.emb (ix2 p q) = ((cfg1.win 2).blk t).view.emb (ix2 p q) := by
    funext a; apply Fin.ext
    match a with
    | ⟨0, _⟩ => show win1_0.index t (0 : Fin 2) * 5000 + 1 * p.val = win1_2.index t (0 : Fin 2) * 5000 + 1 * p.val; omega
    | ⟨1, _⟩ => show win1_0.index t (1 : Fin 2) * 64 + 1 * q.val = win1_2.index t (1 : Fin 2) * 64 + 1 * q.val; omega
  -- the row block's entry (0, q) is the row's entry in the column of the output block's (p, q)
  have h1 : ((cfg1.win 1).blk t).view.emb (ix2 (n0 := 1) (n1 := 64) 0 q)
      = ix2 (n0 := 1) (n1 := 64) 0 (((cfg1.win 2).blk t).view.emb (ix2 p q) 1) := by
    funext a; apply Fin.ext
    match a with
    | ⟨0, _⟩ => show win1_1.index t (0 : Fin 2) * 1 + 1 * 0 = 0; omega
    | ⟨1, _⟩ => show win1_1.index t (1 : Fin 2) * 64 + 1 * q.val = win1_2.index t (1 : Fin 2) * 64 + 1 * q.val; omega
  show FloatOps.maximumf (F := Ideal) (FloatOps.addf (F := Ideal) (V c main_v45 (((cfg1.win 0).blk t).view.emb (ix2 p q)))
        (V c main_v46 (((cfg1.win 1).blk t).view.emb (ix2 (n0 := 1) (n1 := 64) 0 q)))) (FloatOps.ofBits (F := Ideal) .f32 0x00000000#32)
    = FloatOps.maximumf (F := Ideal) (FloatOps.addf (F := Ideal) (V c main_v45 (((cfg1.win 2).blk t).view.emb (ix2 p q)))
        (V c main_v46 (ix2 (n0 := 1) (n1 := 64) 0 (((cfg1.win 2).blk t).view.emb (ix2 p q) 1)))) (FloatOps.ofBits (F := Ideal) .f32 0x00000000#32)
  rw [h0, h1]

/-- An index of the array is in point `t`'s block iff each coordinate is in the block's range on its axis. -/
theorem mem_blk (t : Fin cfg1.N) (i : S100000x64.Idx) :
    i ∈ ((cfg1.win 2).blk t).view.set ↔ ∀ a : Fin 2, win1_2.index t a * S5000x64.size a ≤ (i a).val ∧ (i a).val < win1_2.index t a * S5000x64.size a + S5000x64.size a := by
  show i ∈ ((View.whole main_v47).slice (win1_2.rect t)).set ↔ _
  rw [View.set_slice_whole, Rect.mem_set_unit]
  exact Iff.rfl

/-- The twenty blocks of 5000 rows tile the 100000 rows: row `r` lies in the block of point `r / 5000`, and every
    column lies in the one block column. -/
theorem cover (i : S100000x64.Idx) :
    ∃ t : Fin cfg1.N, (cfg1.win 2).flush t = true ∧ i ∈ ((cfg1.win 2).blk t).view.set := by
  have hi0 : (i 0).val < 100000 := (i 0).isLt
  have hi1 : (i 1).val < 64 := (i 1).isLt
  have hN : cfg1.N = 20 := N_1
  have hlt : (i 0).val / 5000 < cfg1.N := by rw [hN]; omega
  obtain ⟨-, -, -, -, e20, e21⟩ := index_facts ⟨(i 0).val / 5000, hlt⟩
  have e20' : win1_2.index ⟨(i 0).val / 5000, hlt⟩ (0 : Fin 2) = (i 0).val / 5000 := e20
  refine ⟨⟨(i 0).val / 5000, hlt⟩, flush1_2 _, ?_⟩
  rw [mem_blk]
  intro a
  match a with
  | ⟨0, _⟩ =>
    show win1_2.index ⟨(i 0).val / 5000, hlt⟩ (0 : Fin 2) * 5000 ≤ (i 0).val
      ∧ (i 0).val < win1_2.index ⟨(i 0).val / 5000, hlt⟩ (0 : Fin 2) * 5000 + 5000
    omega
  | ⟨1, _⟩ =>
    show win1_2.index ⟨(i 0).val / 5000, hlt⟩ (1 : Fin 2) * 64 ≤ (i 1).val
      ∧ (i 1).val < win1_2.index ⟨(i 0).val / 5000, hlt⟩ (1 : Fin 2) * 64 + 64
    omega

theorem arr (c : Dev nD) :
    (dat1 (F := Ideal) V c).arrAt 2 cfg1.N = Gcn.addRowRelu (V c main_v45) (V c main_v46) :=
  (dat1 (F := Ideal) V c).arrAt_eq_of_cover 2 _ (fun t _ => flushed_eq V c t) cover

end Cert.KernelIdeal.Reg1

end
-- ==== Proof.Reg2.lean ====
import proofs.«172379_j24455543783860_1_alg».proof.Proof.Gen.KernelIdeal.Frame
import proofs.«172379_j24455543783860_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg2

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## One block of the product, read at an index -/

/-- Both offsets of the body's load rectangles and of its store rectangle are zero. -/
theorem origin_zero : (![0, 0] : Fin 2 → Nat) = fun _ => 0 :=
  funext fun a => by match a with | ⟨0, _⟩ => rfl | ⟨1, _⟩ => rfl

/-- Left operand, row axis: the row of the output entry. -/
theorem lhs_blk_0 (i : S5000x64.Idx) (q : dot_S5000x64_S64x64_S5000x64_1_0_0_1_n_n.contr.Idx) :
    (dot_S5000x64_S64x64_S5000x64_1_0_0_1_n_n.lhsIdx i q 0).val = (i 0).val := by
  unfold DotDims.lhsIdx
  rw [dif_neg (show ¬(0 : Fin S5000x64.rank) ∈ dot_S5000x64_S64x64_S5000x64_1_0_0_1_n_n.lhsBatch by decide), dif_pos (show (0 : Fin S5000x64.rank) ∈ dot_S5000x64_S64x64_S5000x64_1_0_0_1_n_n.lhsNonContracting by decide)]
  rfl
/-- Left operand, column axis: the contraction coordinate. -/
theorem lhs_blk_1 (i : S5000x64.Idx) (q : dot_S5000x64_S64x64_S5000x64_1_0_0_1_n_n.contr.Idx) :
    (dot_S5000x64_S64x64_S5000x64_1_0_0_1_n_n.lhsIdx i q 1).val = (q ⟨0, by decide⟩).val :=
  dot_S5000x64_S64x64_S5000x64_1_0_0_1_n_n.lhsIdx_val_of_single rfl i q
/-- Right operand, row axis: the contraction coordinate. -/
theorem rhs_blk_0 (i : S5000x64.Idx) (q : dot_S5000x64_S64x64_S5000x64_1_0_0_1_n_n.contr.Idx) :
    (dot_S5000x64_S64x64_S5000x64_1_0_0_1_n_n.rhsIdx i q 0).val = (q ⟨0, by decide⟩).val :=
  dot_S5000x64_S64x64_S5000x64_1_0_0_1_n_n.rhsIdx_val_of_single rfl i q
/-- Right operand, column axis: the column of the output entry. -/
theorem rhs_blk_1 (i : S5000x64.Idx) (q : dot_S5000x64_S64x64_S5000x64_1_0_0_1_n_n.contr.Idx) :
    (dot_S5000x64_S64x64_S5000x64_1_0_0_1_n_n.rhsIdx i q 1).val = (i 1).val := by
  unfold DotDims.rhsIdx
  rw [dif_neg (show ¬(1 : Fin S64x64.rank) ∈ dot_S5000x64_S64x64_S5000x64_1_0_0_1_n_n.rhsBatch by decide), dif_pos (show (1 : Fin S64x64.rank) ∈ dot_S5000x64_S64x64_S5000x64_1_0_0_1_n_n.rhsNonContracting by decide)]
  rfl

/-- Entry (p, q) of the body's result: the sum over k of the left block's entry (p, k) times the weight's entry (k, q).
    Over the ideal reals the change of float format is the identity, the cast of the left block to its own shape
    changes nothing, and the accumulator is the zero array. -/
theorem blockProd_apply (x0 : Vec Ideal S5000x64 .f32) (x1 : Vec Ideal S64x64 .f32) (p : Fin 5000) (q : Fin 64) :
    k2_pay1 (F := Ideal) x0 x1 (ix2 (n0 := 5000) (n1 := 64) p q)
      = ∑ k : Fin 64, x0 (ix2 (n0 := 5000) (n1 := 64) p k) * x1 (ix2 (n0 := 64) (n1 := 64) k q) := by
  unfold k2_pay1
  simp only [matmul]
  rw [shapeCast_self]
  rw [Ideal.matmul_constant_zero_apply, ← Equiv.sum_comp (contrEquiv1 dot_S5000x64_S64x64_S5000x64_1_0_0_1_n_n 64 rfl rfl).symm]
  refine Finset.sum_congr rfl fun k _ => ?_
  have hk := contrEquiv1_symm_val dot_S5000x64_S64x64_S5000x64_1_0_0_1_n_n 64 rfl rfl k
  have el : dot_S5000x64_S64x64_S5000x64_1_0_0_1_n_n.lhsIdx (ix2 (n0 := 5000) (n1 := 64) p q) ((contrEquiv1 dot_S5000x64_S64x64_S5000x64_1_0_0_1_n_n 64 rfl rfl).symm k) = ix2 (n0 := 5000) (n1 := 64) p k := funext fun a => Fin.ext (by
    match a with
    | ⟨0, _⟩ => exact lhs_blk_0 _ _
    | ⟨1, _⟩ => exact (lhs_blk_1 _ _).trans hk)
  have er : dot_S5000x64_S64x64_S5000x64_1_0_0_1_n_n.rhsIdx (ix2 (n0 := 5000) (n1 := 64) p q) ((contrEquiv1 dot_S5000x64_S64x64_S5000x64_1_0_0_1_n_n 64 rfl rfl).symm k) = ix2 (n0 := 64) (n1 := 64) k q := funext fun a => Fin.ext (by
    match a with
    | ⟨0, _⟩ => exact (rhs_blk_0 _ _).trans hk
    | ⟨1, _⟩ => exact rhs_blk_1 _ _)
  rw [el, er]
  rfl

/-! ## From the blocks to the whole array -/

/-- The printed index maps over the twenty grid points: the left operand's block moves with the output's block down the
    rows, the weight is one block, and every block starts at column zero. -/
theorem idx_facts : ∀ t : Fin cfg2.N, win2_0.index t (0 : Fin 2) = win2_2.index t (0 : Fin 2)
    ∧ win2_0.index t (1 : Fin 2) = 0
    ∧ win2_1.index t (0 : Fin 2) = 0
    ∧ win2_1.index t (1 : Fin 2) = 0
    ∧ win2_2.index t (1 : Fin 2) = 0
    ∧ win2_2.index t (0 : Fin 2) ≤ 19 :=
  (by decide +kernel : ∀ t : Fin grid2.N, _)

/-- Every one of the twenty row blocks is some point's output block. -/
theorem idx_onto : ∀ q0 : Fin 20, ∃ t : Fin cfg2.N, win2_2.index t = ![q0.val, 0] :=
  (by decide +kernel : ∀ q0 : Fin 20, ∃ t : Fin grid2.N, win2_2.index t = ![q0.val, 0])

/-- WHAT POINT t WRITES BACK is block t of the matrix product of the two arrays the region reads. -/
theorem flushed_eq (c : Dev nD) (t : Fin cfg2.N) :
    (dat2 (F := Ideal) V c).flushed 2 t
      = ((cfg2.win 2).blk t).view.read (Elt Ideal) (Gcn.matProd (V c main_v47) (V c main_arg4)) := by
  show (cfg2.win 2).cut (grid2.coords t) ((dat2 (F := Ideal) V c).after 2 t) = _
  rw [after2_2]
  unfold out2_2
  rw [View.canon_unit_zero origin_zero]
  simp only [View.ld_unit_zero (S := S5000x64) origin_zero, View.ld_unit_zero (S := S64x64) origin_zero]
  obtain ⟨e0, e1, e2, e3, e4, e5⟩ := idx_facts t
  funext j
  have hj : j = ix2 (n0 := 5000) (n1 := 64) (j 0) (j 1) := eq_ix2 (n0 := 5000) (n1 := 64) j
  show k2_pay1 (F := Ideal) (iblk2 V c 0 t) (iblk2 V c 1 t) j
      = Gcn.matProd (V c main_v47) (V c main_arg4) (((cfg2.win 2).blk t).view.emb j)
  refine ((congrArg (k2_pay1 (F := Ideal) (iblk2 V c 0 t) (iblk2 V c 1 t)) hj).trans
    (blockProd_apply (iblk2 V c 0 t) (iblk2 V c 1 t) (j 0) (j 1))).trans ?_
  refine Finset.sum_congr rfl fun k _ => ?_
  have hl : ((cfg2.win 0).blk t).view.emb (ix2 (n0 := 5000) (n1 := 64) (j 0) k)
      = ix2 (n0 := 100000) (n1 := 64) ((((cfg2.win 2).blk t).view.emb j) 0) k := by
    funext a; apply Fin.ext
    match a with
    | ⟨0, _⟩ => show win2_0.index t (0 : Fin 2) * 5000 + 1 * (j 0).val = win2_2.index t (0 : Fin 2) * 5000 + 1 * (j 0).val; omega
    | ⟨1, _⟩ => show win2_0.index t (1 : Fin 2) * 64 + 1 * k.val = k.val; omega
  have hr : ((cfg2.win 1).blk t).view.emb (ix2 (n0 := 64) (n1 := 64) k (j 1))
      = ix2 (n0 := 64) (n1 := 64) k ((((cfg2.win 2).blk t).view.emb j) 1) := by
    funext a; apply Fin.ext
    match a with
    | ⟨0, _⟩ => show win2_1.index t (0 : Fin 2) * 64 + 1 * k.val = k.val; omega
    | ⟨1, _⟩ => show win2_1.index t (1 : Fin 2) * 64 + 1 * (j 1).val = win2_2.index t (1 : Fin 2) * 64 + 1 * (j 1).val; omega
  have h1 : iblk2 (F := Ideal) V c 0 t (ix2 (n0 := 5000) (n1 := 64) (j 0) k)
      = V c main_v47 (ix2 (n0 := 100000) (n1 := 64) ((((cfg2.win 2).blk t).view.emb j) 0) k) :=
    congrArg (V c main_v47) hl
  have h2 : iblk2 (F := Ideal) V c 1 t (ix2 (n0 := 64) (n1 := 64) k (j 1))
      = V c main_arg4 (ix2 (n0 := 64) (n1 := 64) k ((((cfg2.win 2).blk t).view.emb j) 1)) :=
    congrArg (V c main_arg4) hr
  exact congrArg₂ _ h1 h2

/-- An index of the output array is in point t's block iff each coordinate is in the block's range on its axis. -/
theorem mem_blk (t : Fin cfg2.N) (i : S100000x64.Idx) :
    i ∈ ((cfg2.win 2).blk t).view.set ↔ ∀ a : Fin 2, win2_2.index t a * S5000x64.size a ≤ (i a).val ∧ (i a).val < win2_2.index t a * S5000x64.size a + S5000x64.size a := by
  show i ∈ ((View.whole main_v48).slice (win2_2.rect t)).set ↔ _
  rw [View.set_slice_whole, Rect.mem_set_unit]
  exact Iff.rfl

/-- The twenty blocks of 5000 rows fill the 100000 rows: row r is in the block of point r / 5000. -/
theorem covered (i : S100000x64.Idx) :
    ∃ t : Fin cfg2.N, (cfg2.win 2).flush t = true ∧ i ∈ ((cfg2.win 2).blk t).view.set := by
  have hi0 : (i 0).val < 100000 := (i 0).isLt
  have hi1 : (i 1).val < 64 := (i 1).isLt
  obtain ⟨t, ht⟩ := idx_onto ⟨(i 0).val / 5000, by omega⟩
  have q0 : win2_2.index t (0 : Fin 2) = (i 0).val / 5000 := congrFun ht 0
  have q1 : win2_2.index t (1 : Fin 2) = 0 := congrFun ht 1
  refine ⟨t, flush2_2 t, ?_⟩
  rw [mem_blk]
  intro a
  match a with
  | ⟨0, _⟩ => show win2_2.index t (0 : Fin 2) * 5000 ≤ (i 0).val ∧ (i 0).val < win2_2.index t (0 : Fin 2) * 5000 + 5000; omega
  | ⟨1, _⟩ => show win2_2.index t (1 : Fin 2) * 64 ≤ (i 1).val ∧ (i 1).val < win2_2.index t (1 : Fin 2) * 64 + 64; omega

theorem arr (c : Dev nD) :
    (dat2 (F := Ideal) V c).arrAt 2 cfg2.N = Gcn.matProd (V c main_v47) (V c main_arg4) :=
  (dat2 (F := Ideal) V c).arrAt_eq_of_cover 2 _ (fun t _ => flushed_eq V c t) (fun i => covered i)

end Cert.KernelIdeal.Reg2

end
-- ==== Proof.Reg3.lean ====
import proofs.«172379_j24455543783860_1_alg».proof.Proof.Gen.KernelIdeal.Frame
import proofs.«172379_j24455543783860_1_alg».proof.Proof.Spec
import Idealize.ShloMosaic.Lib.Pipeline.Value
import Idealize.ShloMosaic.Lib.ValueIdx
import Idealize.ShloMosaic.Lib.ValueLayout
import Idealize.ShloMosaic.PureOps.Ideal.Laws

set_option maxRecDepth 16384

noncomputable section

namespace Cert.KernelIdeal.Reg3

open Idealize.ShloMosaic Idealize.ShloMosaic.TcCoe Idealize.ShloMosaic.ValueIdx Idealize.SL.Sem
open Cert.KernelIdeal Cert.KernelIdeal.Gen

variable (V : (c : Dev nD) → (b : Ref sig .tc) → Buf (Elt Ideal) ((c : Thread nD τ).loc b))

/-! ## The body's stored value at one index -/

/-- A whole-buffer access starts at offset zero on both axes. -/
theorem off_zero : (![0, 0] : Fin 2 → Nat) = fun _ => 0 := funext fun a => by fin_cases a <;> rfl

/-- The value the body stores, read at row `p` and column `q` of the block: the block's entry plus the bias row's entry
    in column `q`. The two shape casts are to the same shape; the row is broadcast along the rows, so only its
    column coordinate is read. -/
theorem pay_apply (x0 : Vec Ideal S5000x64 .f32) (x1 : Vec Ideal S1x64 .f32) (p : Fin 5000) (q : Fin 64) :
    k3_pay1 (F := Ideal) x0 x1 (ix2 p q)
      = FloatOps.addf (F := Ideal) (x0 (ix2 p q)) (x1 (ix2 (n0 := 1) (n1 := 64) 0 q)) := by
  unfold k3_pay1
  rw [shapeCast_self, shapeCast_self]
  show FloatOps.addf (F := Ideal) (x0 (ix2 p q)) (broadcastTo S5000x64 x1 broadcasts_S1x64_S5000x64 (ix2 p q)) = _
  rw [broadcastTo_apply x1 broadcasts_S1x64_S5000x64 (ix2 p q) (ix2 (n0 := 1) (n1 := 64) 0 q) (by
    intro a
    match a with
    | ⟨0, _⟩ => rfl
    | ⟨1, _⟩ => rfl)]

/-! ## From the blocks to the whole array -/

/-- The index maps, decided once over the twenty grid points: at point `t` the input block and the output block are
    block row `t` (block column 0) of their arrays, and the bias row is its one block. -/
theorem index_facts : ∀ t : Fin cfg3.N,
    win3_0.index t (0 : Fin 2) = t.val ∧ win3_0.index t (1 : Fin 2) = 0
    ∧ win3_1.index t (0 : Fin 2) = 0 ∧ win3_1.index t (1 : Fin 2) = 0
    ∧ win3_2.index t (0 : Fin 2) = t.val ∧ win3_2.index t (1 : Fin 2) = 0 :=
  (by decide +kernel : ∀ t : Fin grid3.N, _)

/-- What point `t` writes back is block `t` of the row-biased array: the input block lies over the same rows and
    columns as the output block, and the row's entry is read in the output's column. -/
theorem flushed_eq (c : Dev nD) (t : Fin cfg3.N) :
    (dat3 (F := Ideal) V c).flushed 2 t
      = ((cfg3.win 2).blk t).view.read (Elt Ideal) (Gcn.addRow (V c main_v61) (V c main_v62)) := by
  show (cfg3.win 2).cut (grid3.coords t) ((dat3 V c).after 2 t) = _
  rw [after3_2]
  unfold out3_2
  rw [View.canon_unit_zero off_zero]
  simp only [View.ld_unit_zero (S := S5000x64) off_zero, View.ld_unit_zero (S := S1x64) off_zero]
  obtain ⟨e00, e01, e10, e11, e20, e21⟩ := index_facts t
  funext j
  obtain ⟨p, q, rfl⟩ : ∃ (p : Fin 5000) (q : Fin 64), j = ix2 p q := ⟨j 0, j 1, eq_ix2 j⟩
  refine (pay_apply (iblk3 V c 0 t) (iblk3 V c 1 t) p q).trans ?_
  -- the input block's entry (p, q) is the array's entry at the output block's (p, q)
  have h0 : ((cfg3.win 0).blk t).view.emb (ix2 p q) = ((cfg3.win 2).blk t).view.emb (ix2 p q) := by
    funext a; apply Fin.ext
    match a with
    | ⟨0, _⟩ => show win3_0.index t (0 : Fin 2) * 5000 + 1 * p.val = win3_2.index t (0 : Fin 2) * 5000 + 1 * p.val; omega
    | ⟨1, _⟩ => show win3_0.index t (1 : Fin 2) * 64 + 1 * q.val = win3_2.index t (1 : Fin 2) * 64 + 1 * q.val; omega
  -- the row block's entry (0, q) is the row's entry in the column of the output block's (p, q)
  have h1 : ((cfg3.win 1).blk t).view.emb (ix2 (n0 := 1) (n1 := 64) 0 q)
      = ix2 (n0 := 1) (n1 := 64) 0 (((cfg3.win 2).blk t).view.emb (ix2 p q) 1) := by
    funext a; apply Fin.ext
    match a with
    | ⟨0, _⟩ => show win3_1.index t (0 : Fin 2) * 1 + 1 * 0 = 0; omega
    | ⟨1, _⟩ => show win3_1.index t (1 : Fin 2) * 64 + 1 * q.val = win3_2.index t (1 : Fin 2) * 64 + 1 * q.val; omega
  show FloatOps.addf (F := Ideal) (V c main_v61 (((cfg3.win 0).blk t).view.emb (ix2 p q)))
        (V c main_v62 (((cfg3.win 1).blk t).view.emb (ix2 (n0 := 1) (n1 := 64) 0 q)))
    = FloatOps.addf (F := Ideal) (V c main_v61 (((cfg3.win 2).blk t).view.emb (ix2 p q)))
        (V c main_v62 (ix2 (n0 := 1) (n1 := 64) 0 (((cfg3.win 2).blk t).view.emb (ix2 p q) 1)))
  rw [h0, h1]

/-- An index of the array is in point `t`'s block iff each coordinate is in the block's range on its axis. -/
theorem mem_blk (t : Fin cfg3.N) (i : S100000x64.Idx) :
    i ∈ ((cfg3.win 2).blk t).view.set ↔ ∀ a : Fin 2, win3_2.index t a * S5000x64.size a ≤ (i a).val ∧ (i a).val < win3_2.index t a * S5000x64.size a + S5000x64.size a := by
  show i ∈ ((View.whole main_v63).slice (win3_2.rect t)).set ↔ _
  rw [View.set_slice_whole, Rect.mem_set_unit]
  exact Iff.rfl

/-- The twenty blocks of 5000 rows tile the 100000 rows: row `r` lies in the block of point `r / 5000`, and every
    column lies in the one block column. -/
theorem cover (i : S100000x64.Idx) :
    ∃ t : Fin cfg3.N, (cfg3.win 2).flush t = true ∧ i ∈ ((cfg3.win 2).blk t).view.set := by
  have hi0 : (i 0).val < 100000 := (i 0).isLt
  have hi1 : (i 1).val < 64 := (i 1).isLt
  have hN : cfg3.N = 20 := N_3
  have hlt : (i 0).val / 5000 < cfg3.N := by rw [hN]; omega
  obtain ⟨-, -, -, -, e20, e21⟩ := index_facts ⟨(i 0).val / 5000, hlt⟩
  have e20' : win3_2.index ⟨(i 0).val / 5000, hlt⟩ (0 : Fin 2) = (i 0).val / 5000 := e20
  refine ⟨⟨(i 0).val / 5000, hlt⟩, flush3_2 _, ?_⟩
  rw [mem_blk]
  intro a
  match a with
  | ⟨0, _⟩ =>
    show win3_2.index ⟨(i 0).val / 5000, hlt⟩ (0 : Fin 2) * 5000 ≤ (i 0).val
      ∧ (i 0).val < win3_2.index ⟨(i 0).val / 5000, hlt⟩ (0 : Fin 2) * 5000 + 5000
    omega
  | ⟨1, _⟩ =>
    show win3_2.index ⟨(i 0).val / 5000, hlt⟩ (1 : Fin 2) * 64 ≤ (i 1).val
      ∧ (i 1).val < win3_2.index ⟨(i 0).val / 5000, hlt⟩ (1 : Fin 2) * 64 + 64
    omega

theorem arr (c : Dev nD) :
    (dat3 (F := Ideal) V c).arrAt 2 cfg3.N = Gcn.addRow (V c main_v61) (V c main_v62) :=
  (dat3 (F := Ideal) V c).arrAt_eq_of_cover 2 _ (fun t _ => flushed_eq V c t) cover

end Cert.KernelIdeal.Reg3

end
-- ==== Proof.lean ====
/-
  A two-layer graph convolution: each layer multiplies the node features by a weight, gathers every edge's source row,
  scales it by the symmetric degree normalisation, sums the scaled rows at the edge's destination, and adds a bias; the
  first layer is followed by a maximum with zero. The kernel program runs the two matrix products and the two bias
  additions as four tiled regions (twenty blocks of 5000 rows each) and everything else as the same host operations as
  the reference.

  At the exact reading the two programs compute one function. A change of float format is the identity, the tiled
  product into a zero accumulator is the plain sum over the contracted axis, and a block-by-block result whose blocks
  tile the array is the whole-array function; so each region equals the reference's dense stage (`dot_general`, `add`
  of the broadcast bias, the maximum with zero). The gather / scale / scatter-add chain between them is the same
  function on both sides and is carried unopened: the values going into it are equal, so the values coming out are.
  No law that needs finiteness is used, so the precondition is never opened.

  The frames of the two kernel programs are the generated frame certificates; the reference's frame is its run with
  the result dropped. The ideal pass rewrote nothing, so `preserves` is `True`.
-/
import proofs.«172379_j24455543783860_1_alg».proof.Defs
import proofs.«172379_j24455543783860_1_alg».proof.Proof.Gen.Kernel
import proofs.«172379_j24455543783860_1_alg».proof.Proof.Gen.Kernel.Frame
import proofs.«172379_j24455543783860_1_alg».proof.Proof.Gen.KernelIdeal
import proofs.«172379_j24455543783860_1_alg».proof.Proof.Gen.KernelIdeal.Frame
import proofs.«172379_j24455543783860_1_alg».proof.Proof.Gen.ReferenceIdeal
import proofs.«172379_j24455543783860_1_alg».proof.Proof.Gen.Pre_finite_inputs
import proofs.«172379_j24455543783860_1_alg».proof.Proof.KRun
import proofs.«172379_j24455543783860_1_alg».proof.Proof.KValue
import proofs.«172379_j24455543783860_1_alg».proof.Proof.Reg0
import proofs.«172379_j24455543783860_1_alg».proof.Proof.Reg1
import proofs.«172379_j24455543783860_1_alg».proof.Proof.Reg2
import proofs.«172379_j24455543783860_1_alg».proof.Proof.Reg3
import proofs.«172379_j24455543783860_1_alg».proof.Proof.RefRun
import proofs.«172379_j24455543783860_1_alg».proof.Proof.RefRead
import proofs.«172379_j24455543783860_1_alg».proof.Proof.RefBridge
import Idealize.ShloMosaic.Adequacy
import Idealize.ShloMosaic.Init

noncomputable section

namespace Cert.Proof

open Idealize.ShloMosaic Idealize.ShloMosaic.TcCoe Idealize.SL.Sem

/-- The four regions' whole-array values, each at arbitrary entry contents. -/
theorem regionValues : Cert.KernelIdeal.Chain.RegionValues :=
  ⟨Cert.KernelIdeal.Reg0.arr, Cert.KernelIdeal.Reg1.arr, Cert.KernelIdeal.Reg2.arr, Cert.KernelIdeal.Reg3.arr⟩

/-- The idealized kernel program's run: its result array ends at the reference's last stage of the launch arguments,
    the arguments unchanged. -/
theorem kernel_run (m : (ℓ : Loc Cert.KernelIdeal.nD Cert.KernelIdeal.τ Cert.KernelIdeal.sig) → Buf (Elt Ideal) ℓ)
    (ρ : Dev Cert.KernelIdeal.nD → PrngReg) :
    θ_run (Cert.KernelIdeal.defs (F := Ideal)) (onTc (τ := Cert.KernelIdeal.τ) (Cert.KernelIdeal.main (F := Ideal))) ⟨m, fun _ => 0, ρ⟩
      (fun r => ∀ c : Dev Cert.KernelIdeal.nD,
        r.2.mem ((c.tc : Thread Cert.KernelIdeal.nD Cert.KernelIdeal.τ).loc Cert.KernelIdeal.main_v63)
            = Cert.ReferenceIdeal.ReadP.val_main_v66 (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4)) (m ((c.tc : Thread Cert.KernelIdeal.nD Cert.KernelIdeal.τ).loc Cert.KernelIdeal.main_arg5))
        ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
        ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
        ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
        ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
        ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
        ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5)) :=
  (θ_run Cert.KernelIdeal.defs _ _).mono
    (fun _ h c => ⟨(h c).1.trans (Cert.KernelIdeal.Chain.out_eq m ρ regionValues c), (h c).2⟩)
    (Cert.KernelIdeal.GenP.run_out (F := Ideal) m ρ)

theorem frame_k : Cert.frame_Kernel := fun m ρ _ => Cert.Kernel.Gen.frame m ρ

theorem frame_ki : Cert.frame_KernelIdeal := fun m ρ _ => Cert.KernelIdeal.Gen.frame m ρ

/-- The reference's frame is its run with the result dropped. -/
theorem frame_ri : Cert.frame_ReferenceIdeal := fun m ρ _ =>
  (θ_run Cert.ReferenceIdeal.defs _ _).mono (fun _ h c => (h c).2) (Cert.ReferenceIdeal.RunP.run (F := Ideal) m ρ)

/-- The ideal pass rewrote no operation. -/
theorem preserves : Cert.preserves_Kernel_KernelIdeal := trivial

/-- From memories agreeing on the arguments both programs end with the same result array: the reference's last stage
    of the arguments. -/
theorem algebraic : Cert.algebraic_KernelIdeal_ReferenceIdeal := by
  intro m ρ m' ρ' _ hagree
  refine ⟨_, kernel_run m ρ, ?_⟩
  refine (θ_run Cert.ReferenceIdeal.defs _ _).mono (fun _ h c => ⟨(h c).1.trans ?_, (h c).2⟩)
    (Cert.ReferenceIdeal.RunP.run (F := Ideal) m' ρ')
  rw [Cert.ReferenceIdeal.ReadP.val_main_v66_eq, (hagree c).1, (hagree c).2.1, (hagree c).2.2.1, (hagree c).2.2.2.1,
    (hagree c).2.2.2.2.1, (hagree c).2.2.2.2.2]

theorem claim : Cert.Claim :=
  ⟨Cert.Kernel.Gen.facts, Cert.KernelIdeal.Gen.facts, Cert.ReferenceIdeal.Gen.facts, Cert.Pre_finite_inputs.Gen.facts,
    frame_k, frame_ki, frame_ri, preserves, algebraic⟩

end Cert.Proof

end
